-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x5 : Shape := ⟨2, ![8388608, 5]⟩
abbrev S8388608 : Shape := ⟨1, ![8388608]⟩
abbrev S5 : Shape := ⟨1, ![5]⟩
abbrev S_ : Shape := ⟨0, ![]⟩

class Facts : Prop where
  bcast_S_S8388608x5 : S_.BroadcastsInDim S8388608x5 (![] : Fin 0 → Fin S8388608x5.rank)
  reducesTo_S8388608x5_S_d0_1 : S8388608x5.ReducesTo [0, 1] S_
  h_S_ : 0 < S_.numel
  bcast_S_S5 : S_.BroadcastsInDim S5 (![] : Fin 0 → Fin S5.rank)
  reducesTo_S5_S_d0 : S5.ReducesTo [0] S_
  bcast_S_S8388608 : S_.BroadcastsInDim S8388608 (![] : Fin 0 → Fin S8388608.rank)
  reducesTo_S8388608_S_d0 : S8388608.ReducesTo [0] S_

variable [Facts]

def fn {F : FTy → Type} [FloatOps F] (main_arg0 : FVec F S8388608x5 .f32) (main_arg1 : IVec S8388608 32) (main_arg2 : FVec F S5 .f32) : IVec S_ 1 :=
  let main_v0 : FVec F S8388608x5 .f32 := Host.absf main_arg0
  let main_cst : FVec F S_ .f32 := constant S_ .f32 0x7F800000#32
  let main_v1 : FVec F S8388608x5 .f32 := broadcastInDim S8388608x5 ![] bcast_S_S8388608x5 main_cst
  let main_v2 : IVec S8388608x5 1 := cmpf .olt main_v0 main_v1
  let main_c : IVec S_ 1 := constantI S_ 1 1#1
  let main_v3 : IVec S_ 1 := (fun x v => Host.reduce IntOp.andi x v reducesTo_S8388608x5_S_d0_1 h_S_) main_v2 main_c
  let main_v4 : FVec F S5 .f32 := Host.absf main_arg2
  let main_cst_0 : FVec F S_ .f32 := constant S_ .f32 0x7F800000#32
  let main_v5 : FVec F S5 .f32 := broadcastInDim S5 ![] bcast_S_S5 main_cst_0
  let main_v6 : IVec S5 1 := cmpf .olt main_v4 main_v5
  let main_c_1 : IVec S_ 1 := constantI S_ 1 1#1
  let main_v7 : IVec S_ 1 := (fun x v => Host.reduce IntOp.andi x v reducesTo_S5_S_d0 h_S_) main_v6 main_c_1
  let main_v8 : IVec S_ 1 := andi main_v3 main_v7
  let main_c_2 : IVec S_ 32 := constantI S_ 32 0#32
  let main_v9 : IVec S8388608 32 := broadcastInDim S8388608 ![] bcast_S_S8388608 main_c_2
  let main_v10 : IVec S8388608 1 := cmpi .sge main_arg1 main_v9
  let main_c_3 : IVec S_ 32 := constantI S_ 32 5#32
  let main_v11 : IVec S8388608 32 := broadcastInDim S8388608 ![] bcast_S_S8388608 main_c_3
  let main_v12 : IVec S8388608 1 := cmpi .slt main_arg1 main_v11
  let main_v13 : IVec S8388608 1 := andi main_v10 main_v12
  let main_c_4 : IVec S_ 1 := constantI S_ 1 1#1
  let main_v14 : IVec S_ 1 := (fun x v => Host.reduce IntOp.andi x v reducesTo_S8388608_S_d0 h_S_) main_v13 main_c_4
  let main_v15 : IVec S_ 1 := andi main_v8 main_v14
  main_v15
-- ==== Kernel.lean ====
abbrev S8388608x5 : Shape := ⟨2, ![8388608, 5]⟩
abbrev S8388608 : Shape := ⟨1, ![8388608]⟩
abbrev S5 : Shape := ⟨1, ![5]⟩
abbrev S5x8388608 : Shape := ⟨2, ![5, 8388608]⟩
abbrev S1x8388608 : Shape := ⟨2, ![1, 8388608]⟩
abbrev S5x1 : Shape := ⟨2, ![5, 1]⟩
abbrev S2x1x1 : Shape := ⟨3, ![2, 1, 1]⟩
abbrev S5x131072 : Shape := ⟨2, ![5, 131072]⟩
abbrev S1x131072 : Shape := ⟨2, ![1, 131072]⟩
abbrev S1x1x1 : Shape := ⟨3, ![1, 1, 1]⟩
abbrev S131072 : Shape := ⟨1, ![131072]⟩
abbrev S1x1 : Shape := ⟨2, ![1, 1]⟩
abbrev S1 : Shape := ⟨1, ![1]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S8388608x5, .f32⟩
  | .hbm, ⟨1, _⟩ => ⟨S8388608, .i32⟩
  | .hbm, ⟨2, _⟩ => ⟨S5, .f32⟩
  | .hbm, ⟨3, _⟩ => ⟨S5x8388608, .f32⟩
  | .hbm, ⟨4, _⟩ => ⟨S1x8388608, .i32⟩
  | .hbm, ⟨5, _⟩ => ⟨S5x1, .f32⟩
  | .hbm, ⟨6, _⟩ => ⟨S2x1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S5x131072, .f32⟩
  | .local _ .vmem, ⟨1, _⟩ => ⟨S5x131072, .f32⟩
  | .local _ .vmem, ⟨2, _⟩ => ⟨S1x131072, .i32⟩
  | .local _ .vmem, ⟨3, _⟩ => ⟨S1x131072, .i32⟩
  | .local _ .vmem, ⟨4, _⟩ => ⟨S5x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | _, _ => ⟨S8388608x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v64 : BitVec 1 := Scalar.cmpi .eq arg1 c31_i32
  let v65 : BitVec 32 := Scalar.extui v64
  let c0_i32_15 : BitVec 32 := 0#32
  let v66 : BitVec 1 := Scalar.cmpi .ne v65 c0_i32_15
  v66

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x131072 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S5x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8388608x5_S5x8388608_1_0 : S8388608x5.Transposes [1, 0] S5x8388608
  shapeCasts_S8388608_S1x8388608 : S8388608.ShapeCasts S1x8388608
  shapeCasts_S5_S5x1 : S5.ShapeCasts S5x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S5x131072_S5x131072_0_0 : ∀ a, (![0, 0] : Fin 2 → Nat) a + S5x131072.size a ≤ S5x131072.size a
  h_S5x131072 : 0 < S5x131072.numel
  shapeCasts_S5x131072_S5x131072 : S5x131072.ShapeCasts S5x131072
  inb_S1x131072_S1x131072_0_0 : ∀ a, (![0, 0] : Fin 2 → Nat) a + S1x131072.size a ≤ S1x131072.size a
  h_S1x131072 : 0 < S1x131072.numel
  shapeCasts_S1x131072_S1x131072 : S1x131072.ShapeCasts S1x131072
  inb_S5x1_S5x1_0_0 : ∀ a, (![0, 0] : Fin 2 → Nat) a + S5x1.size a ≤ S5x1.size a
  h_S5x1 : 0 < S5x1.numel
  shapeCasts_S5x1_S5x1 : S5x1.ShapeCasts S5x1
  reduces_S5x131072_S131072 : S5x131072.Reduces [0] S131072
  shapeCasts_S131072_S1x131072 : S131072.ShapeCasts S1x131072
  broadcasts_S1x131072_S5x131072 : S1x131072.Broadcasts S5x131072
  slices_S5x131072_o4_0_S1x131072 : S5x131072.Slices ![4, 0] S1x131072
  slices_S5x1_o4_0_S1x1 : S5x1.Slices ![4, 0] S1x1
  inpos_S1x1_p0_0 : ∀ a, (![0, 0] : Fin 2 → Nat) a < S1x1.size a
  slices_S5x131072_o3_0_S1x131072 : S5x131072.Slices ![3, 0] S1x131072
  slices_S5x1_o3_0_S1x1 : S5x1.Slices ![3, 0] S1x1
  slices_S5x131072_o2_0_S1x131072 : S5x131072.Slices ![2, 0] S1x131072
  slices_S5x1_o2_0_S1x1 : S5x1.Slices ![2, 0] S1x1
  slices_S5x131072_o1_0_S1x131072 : S5x131072.Slices ![1, 0] S1x131072
  slices_S5x1_o1_0_S1x1 : S5x1.Slices ![1, 0] S1x1
  slices_S5x131072_o0_0_S1x131072 : S5x131072.Slices ![0, 0] S1x131072
  slices_S5x1_o0_0_S1x1 : S5x1.Slices ![0, 0] S1x1
  reduces_S1x131072_S1 : S1x131072.Reduces [1] S1
  shapeCasts_S1_S1x1 : S1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x131072.size a ≤ S5x8388608.size a
  hwx0_0 : ∀ i : grid0.Coords, EltTy.bits .f32 = 32 ∨ (Rect.block (s := S5x8388608) S5x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x131072.size a ≤ S1x8388608.size a
  hwx0_1 : ∀ i : grid0.Coords, EltTy.bits .i32 = 32 ∨ (Rect.block (s := S1x8388608) S1x131072.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x1.size a ≤ S5x1.size a
  hwx0_2 : ∀ i : grid0.Coords, EltTy.bits .f32 = 32 ∨ (Rect.block (s := S5x1) S5x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_v0) S5x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8388608x5 : Shape := ⟨2, ![8388608, 5]⟩
abbrev S8388608 : Shape := ⟨1, ![8388608]⟩
abbrev S5 : Shape := ⟨1, ![5]⟩
abbrev S_ : Shape := ⟨0, ![]⟩
abbrev S8388608x1 : Shape := ⟨2, ![8388608, 1]⟩
abbrev S8388608x1x1 : Shape := ⟨3, ![8388608, 1, 1]⟩
abbrev S1 : Shape := ⟨1, ![1]⟩
abbrev S1x1x1 : Shape := ⟨3, ![1, 1, 1]⟩

abbrev nBuf : Space → Nat
  | .hbm => 57
  | .vmem => 0
  | .smem => 0
  | _ => 0

abbrev bufTy : (tb : Table) → Fin (tcTables nBuf tb) → BufTy
  | .hbm, ⟨0, _⟩ => ⟨S8388608x5, .f32⟩
  | .hbm, ⟨1, _⟩ => ⟨S8388608, .i32⟩
  | .hbm, ⟨2, _⟩ => ⟨S5, .f32⟩
  | .hbm, ⟨3, _⟩ => ⟨S_, .f32⟩
  | .hbm, ⟨4, _⟩ => ⟨S8388608, .f32⟩
  | .hbm, ⟨5, _⟩ => ⟨S_, .f32⟩
  | .hbm, ⟨6, _⟩ => ⟨S8388608, .f32⟩
  | .hbm, ⟨7, _⟩ => ⟨S8388608, .f32⟩
  | .hbm, ⟨8, _⟩ => ⟨S8388608x1, .f32⟩
  | .hbm, ⟨9, _⟩ => ⟨S8388608x5, .f32⟩
  | .hbm, ⟨10, _⟩ => ⟨S8388608x5, .f32⟩
  | .hbm, ⟨11, _⟩ => ⟨S8388608x5, .f32⟩
  | .hbm, ⟨12, _⟩ => ⟨S_, .f32⟩
  | .hbm, ⟨13, _⟩ => ⟨S8388608, .f32⟩
  | .hbm, ⟨14, _⟩ => ⟨S8388608x1, .f32⟩
  | .hbm, ⟨15, _⟩ => ⟨S8388608x1, .f32⟩
  | .hbm, ⟨16, _⟩ => ⟨S8388608x5, .f32⟩
  | .hbm, ⟨17, _⟩ => ⟨S8388608x5, .f32⟩
  | .hbm, ⟨18, _⟩ => ⟨S8388608x1, .i32⟩
  | .hbm, ⟨19, _⟩ => ⟨S_, .i32⟩
  | .hbm, ⟨20, _⟩ => ⟨S8388608x1, .i32⟩
  | .hbm, ⟨21, _⟩ => ⟨S8388608x1, .i1⟩
  | .hbm, ⟨22, _⟩ => ⟨S_, .i32⟩
  | .hbm, ⟨23, _⟩ => ⟨S8388608x1, .i32⟩
  | .hbm, ⟨24, _⟩ => ⟨S8388608x1, .i32⟩
  | .hbm, ⟨25, _⟩ => ⟨S8388608x1, .i32⟩
  | .hbm, ⟨26, _⟩ => ⟨S8388608x1x1, .i32⟩
  | .hbm, ⟨27, _⟩ => ⟨S1, .i32⟩
  | .hbm, ⟨28, _⟩ => ⟨S_, .i32⟩
  | .hbm, ⟨29, _⟩ => ⟨S8388608x1x1, .i32⟩
  | .hbm, ⟨30, _⟩ => ⟨S8388608x1x1, .i1⟩
  | .hbm, ⟨31, _⟩ => ⟨S1x1x1, .i32⟩
  | .hbm, ⟨32, _⟩ => ⟨S8388608x1x1, .i32⟩
  | .hbm, ⟨33, _⟩ => ⟨S8388608x1x1, .i1⟩
  | .hbm, ⟨34, _⟩ => ⟨S8388608x1x1, .i1⟩
  | .hbm, ⟨35, _⟩ => ⟨S_, .i1⟩
  | .hbm, ⟨36, _⟩ => ⟨S8388608x1, .i1⟩
  | .hbm, ⟨37, _⟩ => ⟨S8388608x1, .f32⟩
  | .hbm, ⟨38, _⟩ => ⟨S_, .f32⟩
  | .hbm, ⟨39, _⟩ => ⟨S8388608x1, .f32⟩
  | .hbm, ⟨40, _⟩ => ⟨S8388608x1, .f32⟩
  | .hbm, ⟨41, _⟩ => ⟨S8388608, .f32⟩
  | .hbm, ⟨42, _⟩ => ⟨S8388608, .f32⟩
  | .hbm, ⟨43, _⟩ => ⟨S_, .i32⟩
  | .hbm, ⟨44, _⟩ => ⟨S8388608, .i32⟩
  | .hbm, ⟨45, _⟩ => ⟨S8388608, .i1⟩
  | .hbm, ⟨46, _⟩ => ⟨S_, .i32⟩
  | .hbm, ⟨47, _⟩ => ⟨S8388608, .i32⟩
  | .hbm, ⟨48, _⟩ => ⟨S8388608, .i32⟩
  | .hbm, ⟨49, _⟩ => ⟨S8388608, .i32⟩
  | .hbm, ⟨50, _⟩ => ⟨S8388608x1, .i32⟩
  | .hbm, ⟨51, _⟩ => ⟨S8388608, .f32⟩
  | .hbm, ⟨52, _⟩ => ⟨S8388608, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S8388608x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_c : Ref sig .tc := ⟨.hbm, 43, rfl⟩
abbrev main_v5 : Ref sig .tc := ⟨.hbm, 44, rfl⟩
abbrev main_v6 : Ref sig .tc := ⟨.hbm, 45, rfl⟩
abbrev main_c_0 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_cst : Ref sig .tc := ⟨.hbm, 53, rfl⟩
abbrev main_v13 : Ref sig .tc := ⟨.hbm, 54, rfl⟩
abbrev main_cst_1 : Ref sig .tc := ⟨.hbm, 55, rfl⟩
abbrev main_v14 : Ref sig .tc := ⟨.hbm, 56, rfl⟩

abbrev nD : Nat := 1
abbrev τ : Topo := Topo.v7x

variable {F : FTy → Type} [FloatOps F]

class Facts₀ : Prop where
  reducesTo_S8388608x5_S8388608_d1 : S8388608x5.ReducesTo [1] S8388608
  h_S_ : 0 < S_.numel
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x5_0_1 : S8388608x1.BroadcastsInDim S8388608x5 (![0, 1] : Fin 2 → Fin S8388608x5.rank)
  bcast_S_S8388608x1 : S_.BroadcastsInDim S8388608x1 (![] : Fin 0 → Fin S8388608x1.rank)
  shapeCasts_S8388608x1_S8388608x1x1 : S8388608x1.ShapeCasts S8388608x1x1
  bcast_S_S8388608x1x1 : S_.BroadcastsInDim S8388608x1x1 (![] : Fin 0 → Fin S8388608x1x1.rank)
  bcast_S1_S1x1x1_2 : S1.BroadcastsInDim S1x1x1 (![2] : Fin 1 → Fin S1x1x1.rank)
  bcast_S1x1x1_S8388608x1x1_0_1_2 : S1x1x1.BroadcastsInDim S8388608x1x1 (![0, 1, 2] : Fin 3 → Fin S8388608x1x1.rank)
  reducesTo_S8388608x1x1_S8388608x1_d2 : S8388608x1x1.ReducesTo [2] S8388608x1
  shapeCasts_S8388608x1_S8388608 : S8388608x1.ShapeCasts S8388608
  reducesTo_S8388608_S_d0 : S8388608.ReducesTo [0] S_
  gather_S8388608x5_S8388608x1x1_S8388608x1_n_1_0_0_1_2_11_wf : GatherDims.WF S8388608x5 S8388608x1x1 S8388608x1 [] [1] [0] [1] [0] 2 ![1, 1]
  gather_S5_S8388608x1_S8388608_n_0_n_n_0_1_1_wf : GatherDims.WF S5 S8388608x1 S8388608 [] [0] [] [0] [] 1 ![1]

variable [Facts₀]

def gather_S8388608x5_S8388608x1x1_S8388608x1_n_1_0_0_1_2_11 : GatherDims S8388608x5 S8388608x1x1 S8388608x1 where
  offsetDims := []
  collapsedSliceDims := [1]
  operandBatchingDims := [0]
  startIndicesBatchingDims := [0]
  startIndexMap := [1]
  indexVectorDim := 2
  sliceSizes := ![1, 1]
  wf := gather_S8388608x5_S8388608x1x1_S8388608x1_n_1_0_0_1_2_11_wf
def gather_S5_S8388608x1_S8388608_n_0_n_n_0_1_1 : GatherDims S5 S8388608x1 S8388608 where
  offsetDims := []
  collapsedSliceDims := [0]
  operandBatchingDims := []
  startIndicesBatchingDims := []
  startIndexMap := [0]
  indexVectorDim := 1
  sliceSizes := ![1]
  wf := gather_S5_S8388608x1_S8388608_n_0_n_n_0_1_1_wf

class Facts : Prop extends Facts₀ where

variable [Facts]
-- ==== Proof.Loss.lean ====
/-
  The mathematics both programs compute, stated once over the argument arrays.

  A row of five logits x and a class k give the cross-entropy term
      (max x + log (∑ⱼ exp (xⱼ - max x))) - x_k ,
  the negated log-softmax of the row at k, which is weighted by the class's entry of a five-entry table. The value of
  either program is the mean of these weighted terms over the 8388608 rows: their sum divided by 8388608.0.
  The class a target word names is its value when that is 0, 1, 2 or 3 and the last class otherwise.
-/
import Idealize.ShloMosaic.PureOps.Ideal
import Idealize.ShloMosaic.Lib.ValueIdx

noncomputable section

open scoped BigOperators

namespace Cert.WeightedCE

open Idealize.ShloMosaic Idealize.ShloMosaic.ValueIdx

/-- The logits: one row of five per sample. -/
abbrev SLogits : Shape := ⟨2, ![8388608, 5]⟩
/-- The target words: one per sample. -/
abbrev STargets : Shape := ⟨1, ![8388608]⟩
/-- The weight table: one entry per class. -/
abbrev STable : Shape := ⟨1, ![5]⟩
/-- A scalar result. -/
abbrev SScalar : Shape := ⟨0, ![]⟩

/-- The value a running maximum starts from. -/
abbrev negInf : EReal := Ideal.ofBits .f32 0xFF800000#32

/-- The largest of a row's five logits. -/
def rowMax (x : Fin 5 → EReal) : EReal := (Finset.univ : Finset (Fin 5)).fold max negInf x

/-- The sum of the exponentials of a row's logits, each shifted down by the row's maximum. -/
def expSum (x : Fin 5 → EReal) : EReal := ∑ k : Fin 5, Ideal.exp (x k - rowMax x)

/-- The class a target word names: itself for the words 0, 1, 2, 3, and the last class for every other word. -/
def cls (t : BitVec 32) : Fin 5 :=
  if t = 0#32 then 0 else if t = 1#32 then 1 else if t = 2#32 then 2 else if t = 3#32 then 3 else 4

/-- One sample's weighted loss: the negated log-softmax of the row at class `k`, times the class's weight. -/
def sampleLoss (x w : Fin 5 → EReal) (k : Fin 5) : EReal :=
  ((rowMax x + Ideal.log (expSum x)) - x k) * w k

/-- Sample `n`'s row of logits. -/
def row (pred : SLogits.Idx → EReal) (n : Fin 8388608) : Fin 5 → EReal := fun k => pred (ix2 n k)

/-- The weight table by class. -/
def table (w : STable.Idx → EReal) : Fin 5 → EReal := fun k => w (ix1 k)

/-- Sample `n`'s weighted loss, from the three argument arrays. -/
def lossAt (pred : SLogits.Idx → EReal) (targ : STargets.Idx → BitVec 32) (w : STable.Idx → EReal) (n : Fin 8388608) : EReal :=
  sampleLoss (row pred n) (table w) (cls (targ (ix1 n)))

/-- The mean of the weighted losses: their sum over the samples, divided by the number of samples as the float 8388608.0. -/
def meanLoss (pred : SLogits.Idx → EReal) (targ : STargets.Idx → BitVec 32) (w : STable.Idx → EReal) : EReal :=
  Ideal.div (∑ n : Fin 8388608, lossAt pred targ w n) (Ideal.ofBits .f32 0x4B000000#32)

end Cert.WeightedCE

end
-- ==== Proof.Payload.lean ====
/-
  The kernel's body at one grid point, as arithmetic: what it stores back into the accumulator is the accumulator's
  value plus the sum, over the 131072 samples of the point's block, of each sample's weighted loss — the sample's five
  logits being a column of the logits block, its target word the entry of the targets block in that column, and the
  weights the table block's one column.
-/
import proofs.«429125_j42202348650721_3_alg».proof.Proof.Gen.KernelIdeal.Skeleton
import proofs.«429125_j42202348650721_3_alg».proof.Proof.Loss
import Idealize.ShloMosaic.PureOps.Ideal.Laws
import Idealize.ShloMosaic.Lib.Pipeline.Value
import Idealize.ShloMosaic.Lib.ValueLayout
import Idealize.ShloMosaic.Lib.StableHlo.Predicate

noncomputable section

open scoped BigOperators

namespace Cert.KernelIdeal.Payload

open Cert.KernelIdeal Cert.KernelIdeal.Gen Idealize.ShloMosaic Idealize.ShloMosaic.ValueIdx

/-- The index a reduction over the five rows inserts at column `q` is `(k, q)`. -/
theorem lift_rows (h : S5x131072.Reduces [0] S131072) (q : Fin 131072) (k : Fin 5) :
    h.lift (ix1 q) k = ix2 k q := by
  funext a
  match a with
  | ⟨0, _⟩ => rfl
  | ⟨1, _⟩ => rfl

/-- The column maximum at column `q` is the largest of the column's five logits. -/
theorem pay6_apply (x0 : Vec Ideal S5x131072 .f32) (u : Fin 1) (q : Fin 131072) :
    k0_pay6 (F := Ideal) x0 (ix2 u q) = Cert.WeightedCE.rowMax (fun k : Fin 5 => x0 (ix2 k q)) := by
  unfold k0_pay6 k0_pay3
  rw [shapeCast_self]
  refine (shapeCast_a_1a_apply _ _ u q).trans ?_
  refine (Ideal.multiReduction_maximumf_single (φ := .f32) x0 _ reduces_S5x131072_S131072 (.inl rfl) rfl (ix1 q)).trans ?_
  unfold Cert.WeightedCE.rowMax
  refine congrArg (fun f : Fin 5 → EReal => (Finset.univ : Finset (Fin 5)).fold max Cert.WeightedCE.negInf f) ?_
  funext k
  exact congrArg x0 (lift_rows _ q k)

/-- The column sum at column `q` is the sum of the exponentials of the column's logits, each shifted down by the column's maximum. -/
theorem pay7_apply (x0 : Vec Ideal S5x131072 .f32) (u : Fin 1) (q : Fin 131072) :
    k0_pay7 (F := Ideal) x0 (ix2 u q) = Cert.WeightedCE.expSum (fun k : Fin 5 => x0 (ix2 k q)) := by
  unfold k0_pay7
  refine (shapeCast_a_1a_apply _ _ u q).trans ?_
  refine (Ideal.multiReduction_add_single (φ := .f32) _ _ reduces_S5x131072_S131072 (.inl rfl) rfl (ix1 q)).trans ?_
  unfold Cert.WeightedCE.expSum
  refine Finset.sum_congr rfl fun (k : Fin 5) _ => ?_
  rw [lift_rows]
  show Ideal.exp (k0_pay3 x0 (ix2 k q) - broadcastTo S5x131072 (k0_pay6 x0) broadcasts_S1x131072_S5x131072 (ix2 k q)) = _
  rw [broadcastTo_1b_ab_apply, pay6_apply]
  unfold k0_pay3
  rw [shapeCast_self]

/-- A select on an equality test of words is the `if` on the equality. -/
theorem select_cmpi_eq {α : Type} (a b : BitVec 32) (A B : α) :
    Scalar.select (IntOp.cmpi .eq a b) A B = if a = b then A else B := by
  by_cases h : a = b
  · rw [StableHlo.Predicate.cmpi_eq_iff.mpr h, select_one, if_pos h]
  · rw [eq_zero_of_ne_one (fun h' => h (StableHlo.Predicate.cmpi_eq_iff.mp h')), select_zero, if_neg h]

/-- Row `k` of the logits block, cut out as a one-row block, reads the block's row `k`. -/
theorem row_slice (x0 : Vec Ideal S5x131072 .f32) (o : Nat) (k : Fin 5) (hk : k.val = o)
    (h : S5x131072.Slices ![o, 0] S1x131072) (q : Fin 131072) :
    extractStridedSlice S1x131072 ![o, 0] x0 h (ix2 (0 : Fin 1) q) = x0 (ix2 k q) :=
  slice2_axis0_apply o x0 h (0 : Fin 1) q k hk

/-- Entry `k` of the weights block, cut out as a one-entry block and extracted, is the block's entry `k`. -/
theorem table_entry (x2 : Vec Ideal S5x1 .f32) (o : Nat) (k : Fin 5) (hk : k.val = o)
    (h : S5x1.Slices ![o, 0] S1x1) (hp : ∀ a, (![0, 0] : Fin 2 → Nat) a < S1x1.size a) :
    extractAt ![0, 0] (extractStridedSlice S1x1 ![o, 0] x2 h) hp = x2 (ix2 k (0 : Fin 1)) := by
  unfold extractAt
  refine extractStridedSlice_apply _ _ _ _ _ fun a => ?_
  match a with
  | ⟨0, _⟩ => exact hk
  | ⟨1, _⟩ => rfl

/-- A choice among five values by the tests for the words 0, 1, 2, 3 in turn is the value at the class the word names. -/
theorem pick_cls {α : Type} (t : BitVec 32) (f : Fin 5 → α) :
    (if t = 0#32 then f 0 else if t = 1#32 then f 1 else if t = 2#32 then f 2 else if t = 3#32 then f 3 else f 4)
      = f (Cert.WeightedCE.cls t) := by
  unfold Cert.WeightedCE.cls
  split_ifs <;> rfl

/-- The logit selected at column `q` by the tests for the words 1, 2, 3. -/
theorem pay11_apply (x0 : Vec Ideal S5x131072 .f32) (x1 : Vec Ideal S1x131072 .i32) (q : Fin 131072) :
    k0_pay11 (F := Ideal) x0 x1 (ix2 (0 : Fin 1) q)
      = if x1 (ix2 0 q) = 1#32 then x0 (ix2 1 q) else if x1 (ix2 0 q) = 2#32 then x0 (ix2 2 q)
        else if x1 (ix2 0 q) = 3#32 then x0 (ix2 3 q) else x0 (ix2 4 q) := by
  unfold k0_pay11 k0_pay10 k0_pay9 k0_pay8 k0_pay4 k0_pay3
  rw [shapeCast_self, shapeCast_self]
  simp only [select_apply, cmpi, broadcast_apply, select_cmpi_eq]
  rw [row_slice x0 1 1 rfl, row_slice x0 2 2 rfl, row_slice x0 3 3 rfl, row_slice x0 4 4 rfl]

/-- The weight selected at column `q` by the tests for the words 1, 2, 3. -/
theorem pay12_apply (x1 : Vec Ideal S1x131072 .i32) (x2 : Vec Ideal S5x1 .f32) (q : Fin 131072) :
    k0_pay12 (F := Ideal) x1 x2 (ix2 (0 : Fin 1) q)
      = if x1 (ix2 0 q) = 1#32 then x2 (ix2 1 0) else if x1 (ix2 0 q) = 2#32 then x2 (ix2 2 0)
        else if x1 (ix2 0 q) = 3#32 then x2 (ix2 3 0) else x2 (ix2 4 0) := by
  unfold k0_pay12 k0_pay10 k0_pay9 k0_pay8 k0_pay4 k0_pay5
  rw [shapeCast_self, shapeCast_self]
  simp only [select_apply, cmpi, broadcast_apply, select_cmpi_eq]
  rw [table_entry x2 1 1 rfl, table_entry x2 2 2 rfl, table_entry x2 3 3 rfl, table_entry x2 4 4 rfl]

/-- The logit the body subtracts at column `q`: the column's logit at the class the target word names. -/
theorem logit_pick (x0 : Vec Ideal S5x131072 .f32) (x1 : Vec Ideal S1x131072 .i32) (q : Fin 131072) :
    Scalar.select (IntOp.cmpi .eq (x1 (ix2 0 q)) 0#32) (x0 (ix2 0 q)) (k0_pay11 (F := Ideal) x0 x1 (ix2 (0 : Fin 1) q))
      = x0 (ix2 (Cert.WeightedCE.cls (x1 (ix2 0 q))) q) := by
  rw [pay11_apply, select_cmpi_eq]
  exact pick_cls (x1 (ix2 0 q)) (fun k : Fin 5 => x0 (ix2 k q))

/-- The weight the body multiplies by at column `q`: the table's entry at the class the target word names. -/
theorem weight_pick (x1 : Vec Ideal S1x131072 .i32) (x2 : Vec Ideal S5x1 .f32) (q : Fin 131072) :
    Scalar.select (IntOp.cmpi .eq (x1 (ix2 0 q)) 0#32) (x2 (ix2 0 0)) (k0_pay12 (F := Ideal) x1 x2 (ix2 (0 : Fin 1) q))
      = x2 (ix2 (Cert.WeightedCE.cls (x1 (ix2 0 q))) 0) := by
  rw [pay12_apply, select_cmpi_eq]
  exact pick_cls (x1 (ix2 0 q)) (fun k : Fin 5 => x2 (ix2 k (0 : Fin 1)))

/-- The index a reduction over the 131072 columns of a one-row block inserts is `(0, q)`. -/
theorem lift_cols (h : S1x131072.Reduces [1] S1) (q : Fin 131072) :
    h.lift (ix1 (0 : Fin 1)) q = ix2 (0 : Fin 1) q := by
  funext a
  match a with
  | ⟨0, _⟩ => rfl
  | ⟨1, _⟩ => rfl

/-- The accumulator block has one index. -/
theorem idx111 (i : S1x1x1.Idx) : i = ix3 (0 : Fin 1) (0 : Fin 1) (0 : Fin 1) := by
  have e : ∀ a b c : Fin 1, ix3 a b c = ix3 (0 : Fin 1) (0 : Fin 1) (0 : Fin 1) := by
    intro a b c
    rw [Subsingleton.elim a 0, Subsingleton.elim b 0, Subsingleton.elim c 0]
  exact (eq_ix3 i).trans (e _ _ _)

/-- The product row at an index: the maximum plus the logarithm of the sum, less the selected logit, times the selected weight. -/
theorem prod_row_apply {s : Shape} (m e p w a0 w0 : FVec Ideal s .f32) (c : IVec s 1) (j : s.Idx) :
    mulf (subf (addf m (log e)) (select c a0 p)) (select c w0 w) j
      = ((m j + Ideal.log (e j)) - Scalar.select (c j) (a0 j) (p j)) * Scalar.select (c j) (w0 j) (w j) := rfl

/-- The value the body stores into the accumulator, read at the ideal instance. -/
theorem acc_payload (x0 : Vec Ideal S5x131072 .f32) (x1 : Vec Ideal S1x131072 .i32) (x2 : Vec Ideal S5x1 .f32)
    (acc : Vec Ideal S1x1x1 .f32) :
    k0_pay1 (F := Ideal) (k0_pay3 x0) (k0_pay4 x1) (k0_pay5 x2) (k0_pay6 x0) (k0_pay7 x0) (k0_pay11 x0 x1) (k0_pay12 x1 x2) acc
      = fun _ => acc (ix3 0 0 0)
          + ∑ q : Fin 131072, Cert.WeightedCE.sampleLoss (fun k : Fin 5 => x0 (ix2 k q)) (fun k : Fin 5 => x2 (ix2 k 0))
              (Cert.WeightedCE.cls (x1 (ix2 0 q))) := by
  funext i
  rw [idx111 i]
  unfold k0_pay1 k0_pay3 k0_pay4 k0_pay5
  rw [shapeCast_self, shapeCast_self, shapeCast_self, shapeCast_self]
  refine (addf_apply (φ := .f32) acc _ _).trans ?_
  refine congrArg (fun z : EReal => acc (ix3 0 0 0) + z) ?_
  refine (shapeCast_ab_1ab_apply _ _ 0 0 0).trans ?_
  refine (shapeCast_a_1a_apply _ _ 0 0).trans ?_
  refine (Ideal.multiReduction_add_single (φ := .f32) _ _ reduces_S1x131072_S1 (.inl rfl) rfl (ix1 0)).trans ?_
  refine Finset.sum_congr rfl fun (q : Fin 131072) _ => ?_
  rw [lift_cols]
  refine (prod_row_apply _ _ _ _ _ _ _ _).trans ?_
  simp only [cmpi, broadcast_apply]
  rw [row_slice x0 0 0 rfl, table_entry x2 0 0 rfl, logit_pick, weight_pick, pay6_apply, pay7_apply]
  rfl

end Cert.KernelIdeal.Payload

end
-- ==== Proof.KernelValue.lean ====
/-
  The kernel's value. One grid point adds to the accumulator the sum of the weighted losses of the 131072 samples in
  the point's block; the accumulator is cleared at the first of every 32 consecutive points and written out at the
  last, so each of the two output entries is the sum of 32 consecutive points' sums; the lines after the region add the
  two entries and divide by the number of samples. Reading each block's entry as an entry of the argument arrays
  (the logits transposed, the targets and the table reshaped) the whole is the mean weighted loss.
-/
import proofs.«429125_j42202348650721_3_alg».proof.Proof.Gen.KernelIdeal.Frame
import proofs.«429125_j42202348650721_3_alg».proof.Proof.Payload
import proofs.«429125_j42202348650721_3_alg».proof.Proof.Loss
import Idealize.ShloMosaic.Lib.Pipeline.Value
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen

/-! ## What each case of the body leaves, as the stored value -/

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The value the body stores into the accumulator, from the three input blocks and what the accumulator held. -/
abbrev stored (x0 : Vec F S5x131072 .f32) (x1 : Vec F S1x131072 .i32) (x2 : Vec F S5x1 .f32) (acc : Vec F S1x1x1 .f32) : Vec F S1x1x1 .f32 :=
  k0_pay1 (k0_pay3 x0) (k0_pay4 x1) (k0_pay5 x2) (k0_pay6 x0) (k0_pay7 x0) (k0_pay11 x0 x1) (k0_pay12 x1 x2) acc

/-- At the first point of a run of 32 the accumulator is cleared first: it ends at the stored value over zeros. -/
theorem sout_A (c : Dev nD) (i : grid0.Coords) (arg2 : Memref sig .tc .vmem S5x131072 .f32) (harg2 : arg2.IsWhole) (arg3 : Memref sig .tc .vmem S1x131072 .i32) (harg3 : arg3.IsWhole) (arg4 : Memref sig .tc .vmem S5x1 .f32) (harg4 : arg4.IsWhole) (arg5 : Memref sig .tc .vmem S1x1x1 .f32) (harg5 : arg5.IsWhole) (arg6 : Memref sig .tc .vmem S1x1x1 .f32) (harg6 : arg6.IsWhole) (hc0 : cond0_0 i) (hc1 : ¬cond0_1 i)
    (x0 : Vec F S5x131072 .f32) (x1 : Vec F S1x131072 .i32) (x2 : Vec F S5x1 .f32) :
    sout0_A_0 c i arg2 harg2 arg3 harg3 arg4 harg4 arg5 harg5 arg6 harg6 hc0 hc1 x0 x1 x2 = stored x0 x1 x2 (k0_pay2 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread,
    View.ld_unit_zero (S := S5x131072) hz2, View.ld_unit_zero (S := S1x131072) hz2, View.ld_unit_zero (S := S5x1) hz2]

/-- At a point in the middle of a run the accumulator ends at the stored value over what it held. -/
theorem sout_B (c : Dev nD) (i : grid0.Coords) (arg2 : Memref sig .tc .vmem S5x131072 .f32) (harg2 : arg2.IsWhole) (arg3 : Memref sig .tc .vmem S1x131072 .i32) (harg3 : arg3.IsWhole) (arg4 : Memref sig .tc .vmem S5x1 .f32) (harg4 : arg4.IsWhole) (arg5 : Memref sig .tc .vmem S1x1x1 .f32) (harg5 : arg5.IsWhole) (arg6 : Memref sig .tc .vmem S1x1x1 .f32) (harg6 : arg6.IsWhole) (hc0 : ¬cond0_0 i) (hc1 : ¬cond0_1 i)
    (x0 : Vec F S5x131072 .f32) (x1 : Vec F S1x131072 .i32) (x2 : Vec F S5x1 .f32) (xs0 : Vec F S1x1x1 .f32) :
    sout0_B_0 c i arg2 harg2 arg3 harg3 arg4 harg4 arg5 harg5 arg6 harg6 hc0 hc1 x0 x1 x2 xs0 = stored x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz3]
  simp only [View.readAt_eq_ld, harg2.read_unread, harg3.read_unread, harg4.read_unread, harg6.read_unread,
    View.ld_unit_zero (S := S5x131072) hz2, View.ld_unit_zero (S := S1x131072) hz2, View.ld_unit_zero (S := S5x1) hz2,
    View.ld_unit_zero (S := S1x1x1) hz3]

/-- At the last point of a run the accumulator ends the same way, -/
theorem sout_C (c : Dev nD) (i : grid0.Coords) (arg2 : Memref sig .tc .vmem S5x131072 .f32) (harg2 : arg2.IsWhole) (arg3 : Memref sig .tc .vmem S1x131072 .i32) (harg3 : arg3.IsWhole) (arg4 : Memref sig .tc .vmem S5x1 .f32) (harg4 : arg4.IsWhole) (arg5 : Memref sig .tc .vmem S1x1x1 .f32) (harg5 : arg5.IsWhole) (arg6 : Memref sig .tc .vmem S1x1x1 .f32) (harg6 : arg6.IsWhole) (hc0 : ¬cond0_0 i) (hc1 : cond0_1 i)
    (x0 : Vec F S5x131072 .f32) (x1 : Vec F S1x131072 .i32) (x2 : Vec F S5x1 .f32) (xs0 : Vec F S1x1x1 .f32) :
    sout0_C_0 c i arg2 harg2 arg3 harg3 arg4 harg4 arg5 harg5 arg6 harg6 hc0 hc1 x0 x1 x2 xs0 = stored x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz3]
  simp only [View.readAt_eq_ld, harg2.read_unread, harg3.read_unread, harg4.read_unread, harg6.read_unread,
    View.ld_unit_zero (S := S5x131072) hz2, View.ld_unit_zero (S := S1x131072) hz2, View.ld_unit_zero (S := S5x1) hz2,
    View.ld_unit_zero (S := S1x1x1) hz3]

/-- and the output block is given the accumulator's new value. -/
theorem out_C (c : Dev nD) (i : grid0.Coords) (arg2 : Memref sig .tc .vmem S5x131072 .f32) (harg2 : arg2.IsWhole) (arg3 : Memref sig .tc .vmem S1x131072 .i32) (harg3 : arg3.IsWhole) (arg4 : Memref sig .tc .vmem S5x1 .f32) (harg4 : arg4.IsWhole) (arg5 : Memref sig .tc .vmem S1x1x1 .f32) (harg5 : arg5.IsWhole) (arg6 : Memref sig .tc .vmem S1x1x1 .f32) (harg6 : arg6.IsWhole) (hc0 : ¬cond0_0 i) (hc1 : cond0_1 i)
    (x0 : Vec F S5x131072 .f32) (x1 : Vec F S1x131072 .i32) (x2 : Vec F S5x1 .f32) (xs0 : Vec F S1x1x1 .f32) :
    out0_C_3 c i arg2 harg2 arg3 harg3 arg4 harg4 arg5 harg5 arg6 harg6 hc0 hc1 x0 x1 x2 xs0 = stored x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S1x1x1) _ hz3]
  simp only [View.readAt_eq_ld, harg2.read_unread, harg3.read_unread, harg4.read_unread, harg6.read_unread,
    View.ld_unit_zero (S := S5x131072) hz2, View.ld_unit_zero (S := S1x131072) hz2, View.ld_unit_zero (S := S5x1) hz2,
    View.ld_unit_zero (S := S1x1x1) hz3]

end Pieces

/-! ## The blocks as entries of the argument arrays -/

variable (m : (ℓ : Loc nD τ sig) → Buf (Elt Ideal) ℓ) (ρ : Dev nD → PrngReg)

/-- The three input blocks at a point, at their literal types. -/
abbrev logitsBlk (c : Dev nD) (t : Fin cfg0.N) : Vec Ideal S5x131072 .f32 := iblk m c 0 t
abbrev targetsBlk (c : Dev nD) (t : Fin cfg0.N) : Vec Ideal S1x131072 .i32 := iblk m c 1 t
abbrev tableBlk (c : Dev nD) (t : Fin cfg0.N) : Vec Ideal S5x1 .f32 := iblk m c 2 t

/-- The three argument arrays. -/
abbrev pred (c : Dev nD) : Cert.WeightedCE.SLogits.Idx → EReal := m ((c.tc : Thread nD τ).loc main_arg0)
abbrev targ (c : Dev nD) : Cert.WeightedCE.STargets.Idx → BitVec 32 := m ((c.tc : Thread nD τ).loc main_arg1)
abbrev wtab (c : Dev nD) : Cert.WeightedCE.STable.Idx → EReal := m ((c.tc : Thread nD τ).loc main_arg2)

/-- The region finds the logits transposed, -/
theorem V_v0 (c : Dev nD) : (V m c main_v0 : S5x8388608.Idx → EReal)
    = transpose S5x8388608 [1, 0] (pred m c) transposes_S8388608x5_S5x8388608_1_0 := by
  show StableHlo.after hostOps0 (fun b => m (c, b)) (Proc.devRef .tc main_v0) = _
  after_results <;> rfl

/-- the targets as one row, -/
theorem V_v1 (c : Dev nD) : (V m c main_v1 : S1x8388608.Idx → BitVec 32)
    = shapeCast S1x8388608 (targ m c) shapeCasts_S8388608_S1x8388608 := by
  show StableHlo.after hostOps0 (fun b => m (c, b)) (Proc.devRef .tc main_v1) = _
  after_results <;> rfl

/-- and the table as one column. -/
theorem V_v2 (c : Dev nD) : (V m c main_v2 : S5x1.Idx → EReal)
    = shapeCast S5x1 (wtab m c) shapeCasts_S5_S5x1 := by
  show StableHlo.after hostOps0 (fun b => m (c, b)) (Proc.devRef .tc main_v2) = _
  after_results <;> rfl

/-! ## The windows' blocks, entry by entry -/

/-- Which block each window takes at a point: the logits' and the targets' block along the sample axis is the point's
    own number, the table's is the only one, and the output's is the point's run of 32. -/
theorem index0 : ∀ t : Fin cfg0.N, win0_0.index t (0 : Fin 2) = 0 ∧ win0_0.index t (1 : Fin 2) = t.val :=
  (by decide +kernel : ∀ t : Fin grid0.N, _)
theorem index1 : ∀ t : Fin cfg0.N, win0_1.index t (0 : Fin 2) = 0 ∧ win0_1.index t (1 : Fin 2) = t.val :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 3) = t.val / 32 ∧ win0_3.index t (1 : Fin 3) = 0 ∧ win0_3.index t (2 : Fin 3) = 0 :=
  (by decide +kernel : ∀ t : Fin grid0.N, _)

/-- Sample number `131072 t + q`: column `q` of point `t`'s blocks. -/
def samp (t : Fin cfg0.N) (q : Fin 131072) : Fin 8388608 :=
  ⟨131072 * t.val + q.val, by have hN : t.val < 64 := lt_of_lt_of_eq t.isLt N_0; have := q.isLt; omega⟩

/-- Entry (k, q) of the logits' block at point `t` is logit `k` of sample `131072 t + q`. -/
theorem logitsBlk_apply (c : Dev nD) (t : Fin cfg0.N) (k : Fin 5) (q : Fin 131072) :
    logitsBlk m c t (ix2 k q) = pred m c (ix2 (samp t q) k) := by
  unfold logitsBlk iblk
  rw [View.read_apply]
  show V m c main_v0 _ = _
  rw [V_v0]
  refine transpose_apply _ _ _ _ _ (fun b => ?_)
  match b with
  | ⟨0, _⟩ =>
    show k.val = win0_0.index t 0 * 5 + 1 * k.val
    rw [(index0 t).1]; omega
  | ⟨1, _⟩ =>
    show 131072 * t.val + q.val = win0_0.index t 1 * 131072 + 1 * q.val
    rw [(index0 t).2]; omega

/-- Entry (0, q) of the targets' block at point `t` is the target word of sample `131072 t + q`. -/
theorem targetsBlk_apply (c : Dev nD) (t : Fin cfg0.N) (q : Fin 131072) :
    targetsBlk m c t (ix2 0 q) = targ m c (ix1 (samp t q)) := by
  unfold targetsBlk iblk
  rw [View.read_apply]
  show V m c main_v1 _ = _
  rw [V_v1]
  refine shapeCast_apply _ _ _ _ ?_
  rw [Shape.rowMajor_val_two, Shape.rowMajor_val_one]
  show 131072 * t.val + q.val = (win0_1.index t 0 * 1 + 1 * 0) * 8388608 + (win0_1.index t 1 * 131072 + 1 * q.val)
  rw [(index1 t).1, (index1 t).2]; omega

/-- Entry (k, 0) of the table's block is the table's entry `k`. -/
theorem tableBlk_apply (c : Dev nD) (t : Fin cfg0.N) (k : Fin 5) :
    tableBlk m c t (ix2 k 0) = wtab m c (ix1 k) := by
  unfold tableBlk iblk
  rw [View.read_apply]
  show V m c main_v2 _ = _
  rw [V_v2]
  refine shapeCast_apply _ _ _ _ ?_
  rw [Shape.rowMajor_val_two, Shape.rowMajor_val_one]
  show k.val = (win0_2.index t 0 * 5 + 1 * k.val) * 1 + (win0_2.index t 1 * 1 + 1 * 0)
  rw [(index2 t).1, (index2 t).2]; omega

/-! ## One point's sum, and the accumulator point by point -/

/-- The sum of the weighted losses of point `t`'s 131072 samples. -/
def part (c : Dev nD) (t : Fin cfg0.N) : EReal :=
  ∑ q : Fin 131072, Cert.WeightedCE.lossAt (pred m c) (targ m c) (wtab m c) (samp t q)

/-- The same by natural number, zero past the grid. -/
def partN (c : Dev nD) (s : ℕ) : EReal := if h : s < cfg0.N then part m c ⟨s, h⟩ else 0

/-- What the body stores at point `t`: the accumulator's value plus the point's sum. -/
theorem stored_eq (c : Dev nD) (t : Fin cfg0.N) (acc : Vec Ideal S1x1x1 .f32) :
    stored (logitsBlk m c t) (targetsBlk m c t) (tableBlk m c t) acc = fun _ => acc (ix3 0 0 0) + part m c t := by
  refine (Cert.KernelIdeal.Payload.acc_payload (logitsBlk m c t) (targetsBlk m c t) (tableBlk m c t) acc).trans ?_
  funext _
  refine congrArg (fun z => acc (ix3 0 0 0) + z) ?_
  unfold part
  refine Finset.sum_congr rfl (fun q _ => ?_)
  unfold Cert.WeightedCE.lossAt Cert.WeightedCE.row Cert.WeightedCE.table
  simp only [logitsBlk_apply, targetsBlk_apply, tableBlk_apply]

/-- The cleared accumulator holds zero. -/
theorem cleared_apply (i : S1x1x1.Idx) : k0_pay2 (F := Ideal) i = 0 := by
  unfold k0_pay2
  rw [shapeCast_self]
  show Ideal.ofBits .f32 0x00000000#32 = 0
  exact Ideal.ofBits_zero_f32

/-- After the first point of a run the accumulator holds that point's sum. -/
theorem scratch_first (c : Dev nD) (t : Fin cfg0.N) (h0 : t.val % 32 = 0) :
    (outsAt0 m c t.val t.isLt).2 = fun _ => part m c t := by
  rw [outsAt0_A m c t h0 (by omega)]
  dsimp only
  refine (sout_A (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t)).trans ?_
  refine (stored_eq m c t _).trans ?_
  funext _
  rw [cleared_apply, zero_add]

/-- After any later point it holds what it held plus that point's sum. -/
theorem scratch_next (c : Dev nD) (t : Fin cfg0.N) (h0 : ¬t.val % 32 = 0) :
    (outsAt0 m c t.val t.isLt).2
      = fun _ => (outsAt0 m c (t.val - 1) (Nat.lt_of_le_of_lt (Nat.sub_le _ _) t.isLt)).2 (ix3 0 0 0) + part m c t := by
  by_cases h1 : t.val % 32 = 31
  · rw [outsAt0_C m c t h0 h1]
    dsimp only
    refine (sout_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).trans ?_
    exact stored_eq m c t _
  · rw [outsAt0_B m c t h0 h1]
    dsimp only
    refine (sout_B (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).trans ?_
    exact stored_eq m c t _

/-- At the last point of a run the output block is given what the accumulator ends at. -/
theorem out_last (c : Dev nD) (t : Fin cfg0.N) (h1 : t.val % 32 = 31) :
    (outsAt0 m c t.val t.isLt).1 = (outsAt0 m c t.val t.isLt).2 := by
  have h0 : ¬t.val % 32 = 0 := by omega
  rw [outsAt0_C m c t h0 h1]
  dsimp only
  refine (out_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).trans ?_
  exact (sout_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).symm

/-- So after point `n` the accumulator holds the sum of the points' sums from the start of `n`'s run of 32 up to `n`. -/
theorem scratch_eq (c : Dev nD) : ∀ (n : ℕ) (h : n < cfg0.N),
    (outsAt0 m c n h).2 = fun _ => ∑ s ∈ Finset.Ico (32 * (n / 32)) (n + 1), partN m c s
  | 0, h => by
    refine (scratch_first m c ⟨0, h⟩ rfl).trans ?_
    funext _
    rw [show 32 * (0 / 32) = 0 from rfl, Nat.Ico_succ_singleton, Finset.sum_singleton]
    unfold partN; rw [dif_pos h]
  | n + 1, h => by
    by_cases h0 : (n + 1) % 32 = 0
    · refine (scratch_first m c ⟨n + 1, h⟩ h0).trans ?_
      funext _
      rw [show 32 * ((n + 1) / 32) = n + 1 from by omega, Nat.Ico_succ_singleton, Finset.sum_singleton]
      unfold partN; rw [dif_pos h]
    · refine (scratch_next m c ⟨n + 1, h⟩ h0).trans ?_
      funext _
      show (outsAt0 m c n _).2 (ix3 0 0 0) + part m c ⟨n + 1, h⟩ = _
      rw [scratch_eq c n (Nat.lt_of_succ_lt h)]
      rw [Finset.sum_Ico_succ_top (by omega : 32 * ((n + 1) / 32) ≤ n + 1)]
      rw [show 32 * ((n + 1) / 32) = 32 * (n / 32) from by omega]
      refine congrArg (fun z => (∑ s ∈ Finset.Ico (32 * (n / 32)) (n + 1), partN m c s) + z) ?_
      unfold partN; rw [dif_pos h]

/-! ## The output array -/

/-- What the output array ends holding: entry `r` is the sum of the points' sums over run `r`, the points 32 r … 32 r + 31. -/
def outArr (c : Dev nD) : S2x1x1.Idx → EReal :=
  fun i => ∑ s ∈ Finset.Ico (32 * (i 0).val) (32 * (i 0).val + 32), partN m c s

/-- The write-back at the last point of a run writes the run's entry. -/
theorem flushed_eq (c : Dev nD) (t : Fin cfg0.N) (hf : (cfg0.win 3).flush t = true) :
    (dats m 0 c).flushed 3 t = ((cfg0.win 3).blk t).view.read (Elt Ideal) (outArr m c) := by
  have h31 : t.val % 32 = 31 := (flush0_3 t).mp hf
  have hN : t.val < 64 := lt_of_lt_of_eq t.isLt N_0
  show (cfg0.win 3).cut (grid0.coords t) ((dats m 0 c).after 3 t) = _
  rw [after0_3, out_last m c t h31, scratch_eq m c t.val t.isLt]
  funext y
  rw [View.read_apply]
  show (∑ s ∈ Finset.Ico (32 * (t.val / 32)) (t.val + 1), partN m c s) = outArr m c (((cfg0.win 3).blk t).view.emb y)
  unfold outArr
  have e : ((((cfg0.win 3).blk t).view.emb y) 0).val = t.val / 32 := by
    show win0_3.index t 0 * 1 + 1 * (y 0).val = _
    have hy : (y 0).val < 1 := (y 0).isLt
    rw [(index3 t).1]; omega
  rw [e, show 32 * (t.val / 32) + 32 = t.val + 1 from by omega]

/-- The output's blocks are whole at every point. -/
theorem xsize3 : ∀ t : Fin cfg0.N, win0_3.xsize (grid0.coords t) (0 : Fin 3) = 1 ∧ win0_3.xsize (grid0.coords t) (1 : Fin 3) = 1
    ∧ win0_3.xsize (grid0.coords t) (2 : Fin 3) = 1 :=
  (by decide +kernel : ∀ t : Fin grid0.N, _)

/-- The two write-backs cover the two entries, so the output array ends holding the runs' sums. -/
theorem final3 (c : Dev nD) : (dats m 0 c).arrAt 3 cfg0.N = outArr m c :=
  (dats m 0 c).arrAt_eq_of_cover 3 (outArr m c) (flushed_eq m c) fun i => by
    have hi : (i 0).val < 2 := (i 0).isLt
    have h1 : (i 1).val < 1 := (i 1).isLt
    have h2 : (i 2).val < 1 := (i 2).isLt
    have hN : cfg0.N = 64 := N_0
    obtain ⟨T, hT⟩ : ∃ T : Fin cfg0.N, T.val = 32 * (i 0).val + 31 := ⟨⟨32 * (i 0).val + 31, by omega⟩, rfl⟩
    refine ⟨T, (flush0_3 T).mpr (by omega), ?_⟩
    show i ∈ ((View.whole main_v3).slice (win0_3.rect T)).set
    rw [View.set_slice_whole, Rect.mem_set_unit]
    intro a
    match a with
    | ⟨0, _⟩ =>
      show win0_3.index T 0 * 1 ≤ (i 0).val ∧ (i 0).val < win0_3.index T 0 * 1 + win0_3.xsize (grid0.coords T) 0
      rw [(index3 T).1, (xsize3 T).1]; omega
    | ⟨1, _⟩ =>
      show win0_3.index T 1 * 1 ≤ (i 1).val ∧ (i 1).val < win0_3.index T 1 * 1 + win0_3.xsize (grid0.coords T) 1
      rw [(index3 T).2.1, (xsize3 T).2.1]; omega
    | ⟨2, _⟩ =>
      show win0_3.index T 2 * 1 ≤ (i 2).val ∧ (i 2).val < win0_3.index T 2 * 1 + win0_3.xsize (grid0.coords T) 2
      rw [(index3 T).2.2, (xsize3 T).2.2]; omega

/-! ## The lines after the region -/

/-- The program's result: the two entries added from zero, divided by the sample count. -/
theorem tail_eq (c : Dev nD) :
    Pipeline.afterTail₀ cfgs (dats m) 0 (V0 m) [hostOps1] c main_v5
      = Host.divf (Host.reduceAdd (outArr m c) (constant (F := Ideal) S_ .f32 0x00000000#32) reducesTo_S2x1x1_S_d0_1_2 h_S_)
          (constant (F := Ideal) S_ .f32 0x4B000000#32) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v3)
      = outArr m c :=
    (Pipeline.withArrays_arr spec0 launch0.win.arr_inj c _ _ 3).trans (final3 m c)
  rw [e]

/-! ## The points' sums are the samples' sum -/

/-- The weighted loss by natural number, zero past the samples. -/
def lossN (c : Dev nD) (n : ℕ) : EReal :=
  if h : n < 8388608 then Cert.WeightedCE.lossAt (pred m c) (targ m c) (wtab m c) ⟨n, h⟩ else 0

/-- A point's sum runs over the 131072 consecutive samples of its block. -/
theorem partN_eq (c : Dev nD) (s : ℕ) (hs : s < 64) :
    partN m c s = ∑ q ∈ Finset.range 131072, lossN m c (131072 * s + q) := by
  have h : s < cfg0.N := by rw [show cfg0.N = 64 from N_0]; exact hs
  unfold partN; rw [dif_pos h]
  unfold part
  rw [← Fin.sum_univ_eq_sum_range (fun q => lossN m c (131072 * s + q)) 131072]
  refine Finset.sum_congr rfl (fun q _ => ?_)
  unfold lossN
  rw [dif_pos (by have := q.isLt; omega)]
  rfl

/-- A sum over A blocks of B consecutive numbers is the sum over the B·A numbers. -/
theorem sum_blocks {M : Type*} [AddCommMonoid M] (g : ℕ → M) (B : ℕ) : ∀ A : ℕ,
    ∑ s ∈ Finset.range A, ∑ q ∈ Finset.range B, g (B * s + q) = ∑ n ∈ Finset.range (B * A), g n
  | 0 => by simp
  | A + 1 => by
    rw [Finset.sum_range_succ, sum_blocks g B A, Nat.mul_succ, Finset.sum_range_add]

/-- The 64 points' sums add up to the sum over all samples. -/
theorem total_eq (c : Dev nD) :
    ∑ s ∈ Finset.range 64, partN m c s = ∑ n : Fin 8388608, Cert.WeightedCE.lossAt (pred m c) (targ m c) (wtab m c) n := by
  rw [Finset.sum_congr rfl (fun s hs => partN_eq m c s (Finset.mem_range.mp hs))]
  rw [sum_blocks (lossN m c) 131072 64]
  rw [show 131072 * 64 = 8388608 from by norm_num]
  rw [← Fin.sum_univ_eq_sum_range (lossN m c) 8388608]
  refine Finset.sum_congr rfl (fun n _ => ?_)
  unfold lossN; rw [dif_pos n.isLt]

/-- An index of the output array is its run number. -/
def runEquiv : S2x1x1.Idx ≃ Fin 2 where
  toFun i := i 0
  invFun k := ix3 k 0 0
  left_inv i := by
    funext a
    match a with
    | ⟨0, _⟩ => rfl
    | ⟨1, _⟩ => exact Fin.ext (by have h : (i 1).val < 1 := (i 1).isLt; show (0 : ℕ) = (i 1).val; omega)
    | ⟨2, _⟩ => exact Fin.ext (by have h : (i 2).val < 1 := (i 2).isLt; show (0 : ℕ) = (i 2).val; omega)
  right_inv k := rfl

/-- The two entries of the output array, added from zero, are the sum over all samples. -/
theorem entries_sum (c : Dev nD) :
    Ideal.ofBits .f32 0x00000000#32 + ∑ i : S2x1x1.Idx, outArr m c i
      = ∑ n : Fin 8388608, Cert.WeightedCE.lossAt (pred m c) (targ m c) (wtab m c) n := by
  rw [Ideal.ofBits_zero_f32, zero_add, ← total_eq m c]
  rw [← Equiv.sum_comp runEquiv.symm (outArr m c), Fin.sum_univ_two]
  show (∑ s ∈ Finset.Ico (32 * 0) (32 * 0 + 32), partN m c s) + (∑ s ∈ Finset.Ico (32 * 1) (32 * 1 + 32), partN m c s) = _
  rw [Finset.range_eq_Ico, ← Finset.sum_Ico_consecutive (partN m c) (by norm_num : 0 ≤ 32) (by norm_num : 32 ≤ 64)]

/-- The program's result is the mean weighted loss. -/
theorem result_eq (c : Dev nD) :
    Pipeline.afterTail₀ cfgs (dats m) 0 (V0 m) [hostOps1] c main_v5
      = fun _ => Cert.WeightedCE.meanLoss (pred m c) (targ m c) (wtab m c) := by
  rw [tail_eq]
  funext j
  unfold Cert.WeightedCE.meanLoss
  rw [← entries_sum m c]
  show Ideal.div (Host.reduceAdd (outArr m c) (constant (F := Ideal) S_ .f32 0x00000000#32) reducesTo_S2x1x1_S_d0_1_2 h_S_ j)
      (Ideal.ofBits .f32 0x4B000000#32) = _
  refine congrArg (fun z => Ideal.div z (Ideal.ofBits .f32 0x4B000000#32)) ?_
  simp only [Host.reduceAdd, Ideal.hostReduceAdd_def]
  exact Ideal.hostReduceAdd_total reducesTo_S2x1x1_S_d0_1_2 (fun b => b.elim0) (outArr m c) _ j

/-! ## The run -/

/-- Every weakly fair execution of the kernel's program ends with its result at the mean weighted loss of the
    arguments, and the arguments as they were. -/
theorem run : θ_run defs (onTc (τ := τ) (main (F := Ideal))) ⟨m, fun _ => 0, ρ⟩ fun r => ∀ c : Dev nD,
      r.2.mem ((c.tc : Thread nD τ).loc main_v5) = (fun _ => Cert.WeightedCE.meanLoss (pred m c) (targ m c) (wtab m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefRun.lean ====
/-
  The reference's run, read back: every weakly fair execution of the reference ends with its result at the
  composition of its fifty-four operations, one stage after another, applied to the three argument arrays, and
  leaves the arguments as they were.
-/
import proofs.«429125_j42202348650721_3_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Contents moved to a typed reference's buffer type and back are the contents. -/
theorem ofBuf_toBuf {T : BufTy} (x : TRef sig T) (v : T.Contents (Elt F)) :
    x.ofBuf (x.toBuf v) = v := by
  simp only [TRef.ofBuf, TRef.toBuf, cast_cast, cast_eq]

/-! ## A literal typed reference's transport is the identity -/

theorem ofBuf_arg0 (v : main_arg0.ty.Contents (Elt F)) : (TRef.of (T := ⟨S8388608x5, .f32⟩) main_arg0).ofBuf v = v := rfl
theorem ofBuf_v0 (v : main_v0.ty.Contents (Elt F)) : (TRef.of (T := ⟨S8388608x5, .f32⟩) main_v0).ofBuf v = v := rfl
theorem ofBuf_v1 (v : main_v1.ty.Contents (Elt F)) : (TRef.of (T := ⟨S8388608x1, .i32⟩) main_v1).ofBuf v = v := rfl
theorem ofBuf_call1_v5 (v : main_call1_v5.ty.Contents (Elt F)) : (TRef.of (T := ⟨S8388608x1x1, .i32⟩) main_call1_v5).ofBuf v = v := rfl
theorem toBuf_v0 (v : (⟨S8388608x5, .f32⟩ : BufTy).Contents (Elt F)) : (TRef.of (T := ⟨S8388608x5, .f32⟩) main_v0).toBuf v = v := rfl
theorem toBuf_v2 (v : (⟨S8388608x1, .f32⟩ : BufTy).Contents (Elt F)) : (TRef.of (T := ⟨S8388608x1, .f32⟩) main_v2).toBuf v = v := rfl
theorem toBuf_call1_v4 (v : (⟨S8388608x1, .i32⟩ : BufTy).Contents (Elt F)) : (TRef.of (T := ⟨S8388608x1, .i32⟩) main_call1_v4).toBuf v = v := rfl

/-! ## The operation list in three consecutive stretches

The entries below are those of `Value.ops`, in order: the first fifteen (the row-wise log-softmax of the first
argument, ending at `main_v0`), the next twenty-three (the broadcast of the indices and the gather along the
last axis, ending at `main_v2`), and the last sixteen (the weights' gather, the product, the sum and the
quotient, ending at `main_v14`). -/

/-- Operations 1 to 15: the row-wise log-softmax of the first argument. -/
abbrev opsA : List (HloOp τ sig (Elt F)) :=
  [ TRef.nullary (TRef.of (T := ⟨S_, .f32⟩) main_call0_cst) (constant S_ .f32 0xFF800000#32),
    TRef.binary (TRef.of (T := ⟨S8388608x5, .f32⟩) main_arg0) (TRef.of (T := ⟨S_, .f32⟩) main_call0_cst) (TRef.of (T := ⟨S8388608, .f32⟩) main_call0_v0) (fun x v => Host.reduce FloatOps.maximumf x v reducesTo_S8388608x5_S8388608_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8388608, .f32⟩) main_call0_v1) (broadcastInDim S8388608 ![] bcast_S_S8388608),
    TRef.binary (TRef.of (T := ⟨S8388608, .f32⟩) main_call0_v1) (TRef.of (T := ⟨S8388608, .f32⟩) main_call0_v0) (TRef.of (T := ⟨S8388608, .f32⟩) main_call0_v2) maximumf,
    TRef.unary (TRef.of (T := ⟨S8388608, .f32⟩) main_call0_v2) (TRef.of (T := ⟨S8388608x1, .f32⟩) main_call0_v3) (broadcastInDim S8388608x1 ![0] bcast_S8388608_S8388608x1_0),
    TRef.unary (TRef.of (T := ⟨S8388608x1, .f32⟩) main_call0_v3) (TRef.of (T := ⟨S8388608x5, .f32⟩) main_call0_v4) (broadcastInDim S8388608x5 ![0, 1] bcast_S8388608x1_S8388608x5_0_1),
    TRef.binary (TRef.of (T := ⟨S8388608x5, .f32⟩) main_arg0) (TRef.of (T := ⟨S8388608x5, .f32⟩) main_call0_v4) (TRef.of (T := ⟨S8388608x5, .f32⟩) main_call0_v5) subf,
    TRef.unary (TRef.of (T := ⟨S8388608x5, .f32⟩) main_call0_v5) (TRef.of (T := ⟨S8388608x5, .f32⟩) main_call0_v6) Host.exp,
    TRef.nullary (TRef.of (T := ⟨S_, .f32⟩) main_call0_cst_1) (constant S_ .f32 0x00000000#32),
    TRef.binary (TRef.of (T := ⟨S8388608x5, .f32⟩) main_call0_v6) (TRef.of (T := ⟨S_, .f32⟩) main_call0_cst_1) (TRef.of (T := ⟨S8388608, .f32⟩) main_call0_v7) (fun x v => Host.reduceAdd x v reducesTo_S8388608x5_S8388608_d1 h_S_),
    TRef.unary (TRef.of (T := ⟨S8388608, .f32⟩) main_call0_v7) (TRef.of (T := ⟨S8388608x1, .f32⟩) main_call0_v8) (broadcastInDim S8388608x1 ![0] bcast_S8388608_S8388608x1_0),
    TRef.unary (TRef.of (T := ⟨S8388608x1, .f32⟩) main_call0_v8) (TRef.of (T := ⟨S8388608x1, .f32⟩) main_call0_v9) Host.log,
    TRef.unary (TRef.of (T := ⟨S8388608x1, .f32⟩) main_call0_v9) (TRef.of (T := ⟨S8388608x5, .f32⟩) main_call0_v10) (broadcastInDim S8388608x5 ![0, 1] bcast_S8388608x1_S8388608x5_0_1),
    TRef.binary (TRef.of (T := ⟨S8388608x5, .f32⟩) main_call0_v5) (TRef.of (T := ⟨S8388608x5, .f32⟩) main_call0_v10) (TRef.of (T := ⟨S8388608x5, .f32⟩) main_v0) subf ]

/-- Operations 16 to 38: the indices as a column, wrapped into range, and the entry of each row they select. -/
abbrev opsB : List (HloOp τ sig (Elt F)) :=
  [ unary main_arg1 main_v1 (broadcastInDim S8388608x1 ![0] bcast_S8388608_S8388608x1_0 : (⟨S8388608, .i32⟩ : BufTy).Contents (Elt F) → (⟨S8388608x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8388608x1, .i32⟩) main_call1_v0) (broadcastInDim S8388608x1 ![] bcast_S_S8388608x1),
    TRef.binary (TRef.of (T := ⟨S8388608x1, .i32⟩) main_v1) (TRef.of (T := ⟨S8388608x1, .i32⟩) main_call1_v0) (TRef.of (T := ⟨S8388608x1, .i1⟩) main_call1_v1) (cmpi .slt),
    TRef.nullary (TRef.of (T := ⟨S_, .i32⟩) main_call1_c_0) (constantI S_ 32 5#32),
    TRef.unary (TRef.of (T := ⟨S_, .i32⟩) main_call1_c_0) (TRef.of (T := ⟨S8388608x1, .i32⟩) main_call1_v2) (broadcastInDim S8388608x1 ![] bcast_S_S8388608x1),
    TRef.binary (TRef.of (T := ⟨S8388608x1, .i32⟩) main_v1) (TRef.of (T := ⟨S8388608x1, .i32⟩) main_call1_v2) (TRef.of (T := ⟨S8388608x1, .i32⟩) main_call1_v3) addi,
    TRef.ternary (TRef.of (T := ⟨S8388608x1, .i1⟩) main_call1_v1) (TRef.of (T := ⟨S8388608x1, .i32⟩) main_call1_v3) (TRef.of (T := ⟨S8388608x1, .i32⟩) main_v1) (TRef.of (T := ⟨S8388608x1, .i32⟩) main_call1_v4) select,
    TRef.reshape (TRef.of (T := ⟨S8388608x1, .i32⟩) main_call1_v4) (TRef.of (T := ⟨S8388608x1x1, .i32⟩) main_call1_v5) rfl shapeCasts_S8388608x1_S8388608x1x1,
    TRef.nullary (TRef.of (T := ⟨S1, .i32⟩) main_call1_c_1) (constantI S1 32 4#32),
    TRef.nullary (TRef.of (T := ⟨S_, .i32⟩) main_call1_c_2) (constantI S_ 32 0#32),
    TRef.unary (TRef.of (T := ⟨S_, .i32⟩) main_call1_c_2) (TRef.of (T := ⟨S8388608x1x1, .i32⟩) main_call1_v6) (broadcastInDim S8388608x1x1 ![] bcast_S_S8388608x1x1),
    TRef.binary (TRef.of (T := ⟨S8388608x1x1, .i32⟩) main_call1_v5) (TRef.of (T := ⟨S8388608x1x1, .i32⟩) main_call1_v6) (TRef.of (T := ⟨S8388608x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8388608x1x1, .i32⟩) main_call1_v9) (broadcastInDim S8388608x1x1 ![0, 1, 2] bcast_S1x1x1_S8388608x1x1_0_1_2),
    TRef.binary (TRef.of (T := ⟨S8388608x1x1, .i32⟩) main_call1_v5) (TRef.of (T := ⟨S8388608x1x1, .i32⟩) main_call1_v9) (TRef.of (T := ⟨S8388608x1x1, .i1⟩) main_call1_v10) (cmpi .sle),
    TRef.binary (TRef.of (T := ⟨S8388608x1x1, .i1⟩) main_call1_v7) (TRef.of (T := ⟨S8388608x1x1, .i1⟩) main_call1_v10) (TRef.of (T := ⟨S8388608x1x1, .i1⟩) main_call1_v11) andi,
    TRef.nullary (TRef.of (T := ⟨S_, .i1⟩) main_call1_c_3) (constantI S_ 1 1#1),
    TRef.binary (TRef.of (T := ⟨S8388608x1x1, .i1⟩) main_call1_v11) (TRef.of (T := ⟨S_, .i1⟩) main_call1_c_3) (TRef.of (T := ⟨S8388608x1, .i1⟩) main_call1_v12) (fun x v => Host.reduce IntOp.andi x v reducesTo_S8388608x1x1_S8388608x1_d2 h_S_),
    TRef.binary (TRef.of (T := ⟨S8388608x5, .f32⟩) main_v0) (TRef.of (T := ⟨S8388608x1x1, .i32⟩) main_call1_v5) (TRef.of (T := ⟨S8388608x1, .f32⟩) main_call1_v13) (fun x i => Host.gather gather_S8388608x5_S8388608x1x1_S8388608x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S8388608x1, .f32⟩) main_call1_v14) (broadcastInDim S8388608x1 ![] bcast_S_S8388608x1),
    TRef.ternary (TRef.of (T := ⟨S8388608x1, .i1⟩) main_call1_v12) (TRef.of (T := ⟨S8388608x1, .f32⟩) main_call1_v13) (TRef.of (T := ⟨S8388608x1, .f32⟩) main_call1_v14) (TRef.of (T := ⟨S8388608x1, .f32⟩) main_v2) select ]

/-- Operations 39 to 54: the selected entries negated, weighted, summed and divided by the count. -/
abbrev opsC : List (HloOp τ sig (Elt F)) :=
  [ reshape main_v2 main_v3 rfl shapeCasts_S8388608x1_S8388608,
    unary main_v3 main_v4 (Host.negf : (⟨S8388608, .f32⟩ : BufTy).Contents (Elt F) → (⟨S8388608, .f32⟩ : BufTy).Contents (Elt F)),
    nullary main_c (constantI S_ 32 0#32),
    unary main_c main_v5 (broadcastInDim S8388608 ![] bcast_S_S8388608 : (⟨S_, .i32⟩ : BufTy).Contents (Elt F) → (⟨S8388608, .i32⟩ : BufTy).Contents (Elt F)),
    binary main_arg1 main_v5 main_v6 (cmpi .slt : (⟨S8388608, .i32⟩ : BufTy).Contents (Elt F) → (⟨S8388608, .i32⟩ : BufTy).Contents (Elt F) → (⟨S8388608, .i1⟩ : BufTy).Contents (Elt F)),
    nullary main_c_0 (constantI S_ 32 5#32),
    unary main_c_0 main_v7 (broadcastInDim S8388608 ![] bcast_S_S8388608 : (⟨S_, .i32⟩ : BufTy).Contents (Elt F) → (⟨S8388608, .i32⟩ : BufTy).Contents (Elt F)),
    binary main_arg1 main_v7 main_v8 (addi : (⟨S8388608, .i32⟩ : BufTy).Contents (Elt F) → (⟨S8388608, .i32⟩ : BufTy).Contents (Elt F) → (⟨S8388608, .i32⟩ : BufTy).Contents (Elt F)),
    ternary main_v6 main_v8 main_arg1 main_v9 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    unary main_v9 main_v10 (broadcastInDim S8388608x1 ![0] bcast_S8388608_S8388608x1_0 : (⟨S8388608, .i32⟩ : BufTy).Contents (Elt F) → (⟨S8388608x1, .i32⟩ : BufTy).Contents (Elt F)),
    binary main_arg2 main_v10 main_v11 ((fun x i => Host.gather gather_S5_S8388608x1_S8388608_n_0_n_n_0_1_1 x i) : (⟨S5, .f32⟩ : BufTy).Contents (Elt F) → (⟨S8388608x1, .i32⟩ : BufTy).Contents (Elt F) → (⟨S8388608, .f32⟩ : BufTy).Contents (Elt F)),
    binary main_v4 main_v11 main_v12 (mulf : (⟨S8388608, .f32⟩ : BufTy).Contents (Elt F) → (⟨S8388608, .f32⟩ : BufTy).Contents (Elt F) → (⟨S8388608, .f32⟩ : BufTy).Contents (Elt F)),
    nullary main_cst (constant S_ .f32 0x00000000#32),
    binary main_v12 main_cst main_v13 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F)),
    nullary main_cst_1 (constant S_ .f32 0x4B000000#32),
    binary main_v13 main_cst_1 main_v14 (Host.divf : (⟨S_, .f32⟩ : BufTy).Contents (Elt F) → (⟨S_, .f32⟩ : BufTy).Contents (Elt F) → (⟨S_, .f32⟩ : BufTy).Contents (Elt F)) ]

set_option maxRecDepth 8192 in
theorem ops_split : (Value.ops (F := F)) = opsA ++ (opsB ++ opsC) := rfl

/-! ## What each stretch leaves, from any incoming contents -/

theorem afterA_v0 (W : Valuation τ sig (Elt F)) :
    after (opsA (F := F)) W (Proc.devRef .tc main_v0) = Read.val_main_v0 (F := F) (W (Proc.devRef .tc main_arg0)) := by
  after_results_simp
  simp only [ofBuf_toBuf, ofBuf_arg0, toBuf_v0]
  rfl

theorem afterA_args (W : Valuation τ sig (Elt F)) :
    after (opsA (F := F)) W (Proc.devRef .tc main_arg0) = W (Proc.devRef .tc main_arg0)
      ∧ after (opsA (F := F)) W (Proc.devRef .tc main_arg1) = W (Proc.devRef .tc main_arg1)
      ∧ after (opsA (F := F)) W (Proc.devRef .tc main_arg2) = W (Proc.devRef .tc main_arg2) := by
  refine ⟨?_, ?_, ?_⟩ <;> after_results_simp

theorem afterB_v2 (W : Valuation τ sig (Elt F)) (x0 : (⟨S8388608x5, .f32⟩ : BufTy).Contents (Elt F))
    (h0 : W (Proc.devRef .tc main_v0) = Read.val_main_v0 (F := F) x0) :
    after (opsB (F := F)) W (Proc.devRef .tc main_v2) = Read.val_main_v2 (F := F) x0 (W (Proc.devRef .tc main_arg1)) := by
  after_results_simp
  simp only [ofBuf_toBuf, ofBuf_v0, ofBuf_v1, ofBuf_call1_v5, toBuf_v2, toBuf_call1_v4]
  rw [h0]
  rfl

theorem afterB_args (W : Valuation τ sig (Elt F)) :
    after (opsB (F := F)) W (Proc.devRef .tc main_arg0) = W (Proc.devRef .tc main_arg0)
      ∧ after (opsB (F := F)) W (Proc.devRef .tc main_arg1) = W (Proc.devRef .tc main_arg1)
      ∧ after (opsB (F := F)) W (Proc.devRef .tc main_arg2) = W (Proc.devRef .tc main_arg2) := by
  refine ⟨?_, ?_, ?_⟩ <;> after_results_simp

theorem afterC_v14 (W : Valuation τ sig (Elt F)) (x0 : (⟨S8388608x5, .f32⟩ : BufTy).Contents (Elt F))
    (h2 : W (Proc.devRef .tc main_v2) = Read.val_main_v2 (F := F) x0 (W (Proc.devRef .tc main_arg1))) :
    after (opsC (F := F)) W (Proc.devRef .tc main_v14)
      = Read.val_main_v14 (F := F) x0 (W (Proc.devRef .tc main_arg1)) (W (Proc.devRef .tc main_arg2)) := by
  after_results_simp
  rw [h2]
  rfl

theorem afterC_args (W : Valuation τ sig (Elt F)) :
    after (opsC (F := F)) W (Proc.devRef .tc main_arg0) = W (Proc.devRef .tc main_arg0)
      ∧ after (opsC (F := F)) W (Proc.devRef .tc main_arg1) = W (Proc.devRef .tc main_arg1)
      ∧ after (opsC (F := F)) W (Proc.devRef .tc main_arg2) = W (Proc.devRef .tc main_arg2) := by
  refine ⟨?_, ?_, ?_⟩ <;> after_results_simp

/-! ## The whole list -/

/-- After all fifty-four operations the result buffer holds the last stage at the three arguments' incoming
    contents, and the arguments hold what they held. -/
theorem after_ops (V : Valuation τ sig (Elt F)) :
    after (Value.ops (F := F)) V (Proc.devRef .tc main_v14)
        = Read.val_main_v14 (F := F) (V (Proc.devRef .tc main_arg0)) (V (Proc.devRef .tc main_arg1)) (V (Proc.devRef .tc main_arg2))
      ∧ after (Value.ops (F := F)) V (Proc.devRef .tc main_arg0) = V (Proc.devRef .tc main_arg0)
      ∧ after (Value.ops (F := F)) V (Proc.devRef .tc main_arg1) = V (Proc.devRef .tc main_arg1)
      ∧ after (Value.ops (F := F)) V (Proc.devRef .tc main_arg2) = V (Proc.devRef .tc main_arg2) := by
  rw [ops_split, after_append, after_append]
  obtain ⟨a0, a1, a2⟩ := afterA_args V
  have hA := afterA_v0 V
  generalize after opsA V = W₁ at a0 a1 a2 hA ⊢
  obtain ⟨b0, b1, b2⟩ := afterB_args W₁
  have hB := afterB_v2 W₁ _ hA
  generalize after opsB W₁ = W₂ at b0 b1 b2 hB ⊢
  obtain ⟨c0, c1, c2⟩ := afterC_args W₂
  have hC := afterC_v14 W₂ (V (Proc.devRef .tc main_arg0)) (by rw [b1]; exact hB)
  refine ⟨?_, ?_, ?_, ?_⟩
  · rw [hC, b1, b2, a1, a2]
  · rw [c0, b0, a0]
  · rw [c1, b1, a1]
  · rw [c2, b2, a2]

/-- On every device, for any float values, from any memory with zero counters: every weakly fair execution of the
    reference terminates with its result at the last stage of the operations' composition and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
        = Cert.ReferenceIdeal.Read.val_main_v14 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v14).trans (after_ops (launchContents m c)).1,
       (h c main_arg0).trans (after_ops (launchContents m c)).2.1,
       (h c main_arg1).trans (after_ops (launchContents m c)).2.2.1,
       (h c main_arg2).trans (after_ops (launchContents m c)).2.2.2⟩)
    (run_seq Value.scopedRefs_eq Value.scopedSems_eq defs main (fun _ => Value.ops) Value.main_eq (fun _ => Value.ops_sub) m ρ)

end Cert.ReferenceIdeal.RefRun

end
-- ==== Proof.RefValue.lean ====
/-
  The reference computes the mean weighted loss: with every logit a real number and every target word one of 0 … 4,
  the last stage of the reference's operations is the mean of the samples' weighted losses.

  The road. Sample `n`'s row of logits is read through the stages of the log-softmax: the row maximum (a fold of `max`
  from −∞, which the following `max` with −∞ leaves as it is), the shifted row, the sum of its exponentials, the logarithm.
  A target word below 5 is one of the five words 0 … 4: it is not negative, so the wrap-around select keeps it; it lies in
  0 … 4, so the bounds test holds and the select takes the gathered value; clamped into 0 … 4 it is itself, so both gathers
  read the class it names. One law of the extended reals, for real `a`, `m` and any `L`: −((a − m) − L) = (m + L) − a,
  turns the negated log-softmax term into the cross-entropy term. The sum over the sample indices is the sum over the
  samples, and the quotient is the specification's.
-/
import proofs.«429125_j42202348650721_3_alg».proof.Proof.RefRead
import proofs.«429125_j42202348650721_3_alg».proof.Proof.Loss

noncomputable section

open scoped BigOperators

namespace Cert.ReferenceIdeal.RefValue

open Cert.ReferenceIdeal Cert.ReferenceIdeal.Gen Idealize.ShloMosaic Idealize.ShloMosaic.ValueIdx
open Cert.ReferenceIdeal.Read Cert.WeightedCE

section Stages

/-! ## Words: a target word below 5 is one of five words -/

/-- A 32-bit word whose value is below 5 is one of the words 0, 1, 2, 3, 4. -/
theorem word_cases (t : BitVec 32) (h : t.toNat < 5) :
    t = 0#32 ∨ t = 1#32 ∨ t = 2#32 ∨ t = 3#32 ∨ t = 4#32 := by
  have e : t = BitVec.ofNat 32 t.toNat := by simp
  generalize t.toNat = m at e h
  subst e
  interval_cases m <;> simp

/-- Such a word is not negative: the signed test against 0 is false. -/
theorem slt_zero (t : BitVec 32) (h : t.toNat < 5) : IntOp.cmpi .slt t 0#32 = 0#1 := by
  rcases word_cases t h with rfl | rfl | rfl | rfl | rfl <;> decide

/-- Such a word lies in 0 … 4: both signed bounds tests hold, and so does their conjunction with the starting bit 1. -/
theorem in_bounds (t : BitVec 32) (h : t.toNat < 5) :
    IntOp.andi (IntOp.andi (IntOp.cmpi .sge t 0#32) (IntOp.cmpi .sle t 4#32)) 1#1 = 1#1 := by
  rcases word_cases t h with rfl | rfl | rfl | rfl | rfl <;> decide

/-- Read signed and clamped into 0 … 4, such a word is its own value. -/
theorem clamp_word (t : BitVec 32) (h : t.toNat < 5) : min t.toInt.toNat (5 - 1) = t.toNat := by
  rcases word_cases t h with rfl | rfl | rfl | rfl | rfl <;> decide

/-- The class such a word names is its value. -/
theorem cls_eq (t : BitVec 32) (h : t.toNat < 5) : cls t = ⟨t.toNat, h⟩ := by
  rcases word_cases t h with rfl | rfl | rfl | rfl | rfl <;> rfl

/-! ## Index equations -/

theorem idx_v3_eq (n : Fin 8388608) : idx_main_v3 (ix1 n) = ix2 n (0 : Fin 1) :=
  funext fun a => Fin.ext (by match a with | ⟨0, _⟩ => exact Nat.div_one _ | ⟨1, _⟩ => rfl)

theorem idx_c1v5_eq (n : Fin 8388608) : idx_main_call1_v5 (ix3 n (0 : Fin 1) (0 : Fin 1)) = ix2 n (0 : Fin 1) :=
  funext fun a => Fin.ext (by match a with | ⟨0, _⟩ => show ((n.val * 1 + 0) * 1 + 0) / 1 = n.val; omega | ⟨1, _⟩ => rfl)

theorem idx_v1_eq (n : Fin 8388608) : idx_main_v1 (ix2 n (0 : Fin 1)) = ix1 n :=
  funext fun a => Fin.ext (by match a with | ⟨0, _⟩ => rfl)

theorem idx_v10_eq (n : Fin 8388608) : idx_main_v10 (ix2 n (0 : Fin 1)) = ix1 n :=
  funext fun a => Fin.ext (by match a with | ⟨0, _⟩ => rfl)

theorem idx_c0v3_eq (n : Fin 8388608) : idx_main_call0_v3 (ix2 n (0 : Fin 1)) = ix1 n :=
  funext fun a => Fin.ext (by match a with | ⟨0, _⟩ => rfl)

theorem idx_c0v8_eq (n : Fin 8388608) : idx_main_call0_v8 (ix2 n (0 : Fin 1)) = ix1 n :=
  funext fun a => Fin.ext (by match a with | ⟨0, _⟩ => rfl)

theorem idx_c0v4_eq (n : Fin 8388608) (k : Fin 5) : idx_main_call0_v4 (ix2 n k) = ix2 n (0 : Fin 1) :=
  funext fun a => Fin.ext (by match a with | ⟨0, _⟩ => rfl | ⟨1, _⟩ => rfl)

theorem idx_c0v10_eq (n : Fin 8388608) (k : Fin 5) : idx_main_call0_v10 (ix2 n k) = ix2 n (0 : Fin 1) :=
  funext fun a => Fin.ext (by match a with | ⟨0, _⟩ => rfl | ⟨1, _⟩ => rfl)

theorem idx_c0v7_eq (n : Fin 8388608) (k : Fin 5) : idx_main_call0_v7 (ix1 n) k = ix2 n k :=
  funext fun a => Fin.ext (by match a with | ⟨0, _⟩ => rfl | ⟨1, _⟩ => rfl)

/-! ## The logits' side: the row maximum, the shifted row, the sum of exponentials, the log-softmax -/

variable (x0 : (⟨S8388608x5, .f32⟩ : BufTy).Contents (Elt Ideal)) (x1 : (⟨S8388608, .i32⟩ : BufTy).Contents (Elt Ideal))
  (x2 : (⟨S5, .f32⟩ : BufTy).Contents (Elt Ideal))

/-- The starting value of the running maximum is −∞. -/
theorem negInf_eq_bot : negInf = ⊥ := by simp [Ideal.ofBits, Ideal.ieee]

/-- Inserting class `k` on the class axis of sample index `n` gives the index (n, k). -/
theorem lift_eq (h : S8388608x5.Reduces [1] S8388608) (n : Fin 8388608) (k : Fin 5) :
    h.lift (ix1 n) k = ix2 n k := by
  funext a
  apply Fin.ext
  match a with
  | ⟨0, _⟩ => rfl
  | ⟨1, _⟩ => rfl

/-- The maximum over the class axis, at sample `n`, is the row's maximum. -/
theorem v0_row (n : Fin 8388608) : val_main_call0_v0 (F := Ideal) x0 (ix1 n) = rowMax (row x0 n) := by
  unfold val_main_call0_v0
  refine (Host.reduce_eq_fold_single _ _ _ _ (by decide) _ _).trans ?_
  have e : (x0 ∘ (by decide : S8388608x5.Reduces [1] S8388608).lift (ix1 n)) = row x0 n :=
    funext fun k => congrArg x0 (lift_eq _ n k)
  rw [e]
  rfl

/-- The maximum with −∞ leaves the row's maximum as it is: −∞ is below the fold that starts from it. -/
theorem v2_row (n : Fin 8388608) : val_main_call0_v2 (F := Ideal) x0 (ix1 n) = rowMax (row x0 n) := by
  rw [val_main_call0_v2_apply, val_main_call0_v1_apply, val_main_call0_cst_0_apply, v0_row]
  exact max_eq_right ((Finset.le_fold_max _).2 (Or.inl le_rfl))

/-- The row's maximum, laid along the row. -/
theorem v4_row (n : Fin 8388608) (k : Fin 5) : val_main_call0_v4 (F := Ideal) x0 (ix2 n k) = rowMax (row x0 n) := by
  rw [val_main_call0_v4_apply, idx_c0v4_eq, val_main_call0_v3_apply, idx_c0v3_eq, v2_row]

/-- The shifted logit. -/
theorem v5_row (n : Fin 8388608) (k : Fin 5) :
    val_main_call0_v5 (F := Ideal) x0 (ix2 n k) = x0 (ix2 n k) - rowMax (row x0 n) := by
  rw [val_main_call0_v5_apply, v4_row]
  rfl

/-- The sum, from 0, of the exponentials of the shifted row. -/
theorem v7_row (n : Fin 8388608) : val_main_call0_v7 (F := Ideal) x0 (ix1 n) = expSum (row x0 n) := by
  rw [val_main_call0_v7_apply, val_main_call0_cst_1_apply]
  simp only [idx_c0v7_eq, val_main_call0_v6_apply, v5_row, Ideal.ofBits_def, Ideal.ofBits_zero_f32, zero_add,
    Ideal.hostUnary_exp_def]
  rfl

/-- Its logarithm, laid along the row. -/
theorem v10_row (n : Fin 8388608) (k : Fin 5) :
    val_main_call0_v10 (F := Ideal) x0 (ix2 n k) = Ideal.log (expSum (row x0 n)) := by
  rw [val_main_call0_v10_apply, idx_c0v10_eq, val_main_call0_v9_apply, val_main_call0_v8_apply, idx_c0v8_eq, v7_row]
  rfl

/-- The log-softmax of sample `n`'s row at class `k`. -/
theorem logp_row (n : Fin 8388608) (k : Fin 5) :
    val_main_v0 (F := Ideal) x0 (ix2 n k)
      = (x0 (ix2 n k) - rowMax (row x0 n)) - Ideal.log (expSum (row x0 n)) := by
  rw [val_main_v0_apply, v5_row, v10_row]
  rfl

/-! ## The targets' side: the word kept, the bounds test, the two gathers -/

/-- The wrap-around select keeps a word that is not negative. -/
theorem c1v4_word (n : Fin 8388608) (h : (x1 (ix1 n)).toNat < 5) :
    val_main_call1_v4 (F := Ideal) x1 (ix2 n (0 : Fin 1)) = x1 (ix1 n) := by
  rw [val_main_call1_v4_apply, val_main_call1_v1_apply, val_main_v1_apply, idx_v1_eq, val_main_call1_v0_apply,
    val_main_call1_c_apply, slt_zero _ h]
  exact select_zero _ _

/-- The same word, after the reshape to a column of one-entry index vectors. -/
theorem c1v5_word (n : Fin 8388608) (h : (x1 (ix1 n)).toNat < 5) :
    val_main_call1_v5 (F := Ideal) x1 (ix3 n (0 : Fin 1) (0 : Fin 1)) = x1 (ix1 n) := by
  rw [val_main_call1_v5_apply, idx_c1v5_eq, c1v4_word x1 n h]

/-- Inserting coordinate `k` on the last axis of the index (n, 0) gives the index (n, 0, k). -/
theorem lift3_eq (h : S8388608x1x1.Reduces [2] S8388608x1) (n : Fin 8388608) (k : Fin 1) :
    h.lift (ix2 n (0 : Fin 1)) k = ix3 n (0 : Fin 1) k := by
  funext a
  apply Fin.ext
  match a with
  | ⟨0, _⟩ => rfl
  | ⟨1, _⟩ => rfl
  | ⟨2, _⟩ => rfl

/-- A fold over a one-element axis applies the operation once, to the element and the starting value. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- The bounds test, folded over the one-entry index vector, holds. -/
theorem c1v12_word (n : Fin 8388608) (h : (x1 (ix1 n)).toNat < 5) :
    val_main_call1_v12 (F := Ideal) x1 (ix2 n (0 : Fin 1)) = 1#1 := by
  unfold val_main_call1_v12
  refine (Host.reduce_eq_fold_single _ _ _ _ (by decide) _ _).trans ?_
  refine (fold_fin_one IntOp.andi _ _).trans ?_
  show IntOp.andi (val_main_call1_v11 (F := Ideal) x1
    ((by decide : S8388608x1x1.Reduces [2] S8388608x1).lift (ix2 n (0 : Fin 1)) (0 : Fin 1))) 1#1 = 1#1
  rw [lift3_eq, val_main_call1_v11_apply,
    val_main_call1_v7_apply, val_main_call1_v10_apply, c1v5_word x1 n h,
    val_main_call1_v6_apply, val_main_call1_c_2_apply, val_main_call1_v9_apply, val_main_call1_v8_apply,
    val_main_call1_c_1_apply]
  exact in_bounds _ h

/-- The batched gather's start index for result index (n, 0) is read at (n, 0, 0). -/
theorem gather13_si (n : Fin 8388608) :
    gather_S8388608x5_S8388608x1x1_S8388608x1_n_1_0_0_1_2_11.siIdx (ix2 n (0 : Fin 1)) ⟨0, by decide⟩
      = ix3 n (0 : Fin 1) (0 : Fin 1) := by
  funext b
  apply Fin.ext
  match b with
  | ⟨0, _⟩ => rfl
  | ⟨1, _⟩ => rfl
  | ⟨2, _⟩ => rfl

/-- The batched gather reads, for result index (n, 0), row `n` at the start index read signed and clamped into 0 … 4. -/
theorem gather13_idx (idx : IVec S8388608x1x1 32) (n : Fin 8388608) :
    gather_S8388608x5_S8388608x1x1_S8388608x1_n_1_0_0_1_2_11.operandIdx (ix2 n (0 : Fin 1)) idx
      = ix2 n ⟨min (idx (ix3 n (0 : Fin 1) (0 : Fin 1))).toInt.toNat (5 - 1), by omega⟩ := by
  funext a
  apply Fin.ext
  match a with
  | ⟨0, _⟩ =>
    have h1 : gather_S8388608x5_S8388608x1x1_S8388608x1_n_1_0_0_1_2_11.start (ix2 n (0 : Fin 1)) idx 0 = 0 := rfl
    have h2 : gather_S8388608x5_S8388608x1x1_S8388608x1_n_1_0_0_1_2_11.batchCoord (ix2 n (0 : Fin 1)) 0 = n.val := rfl
    have h3 : gather_S8388608x5_S8388608x1x1_S8388608x1_n_1_0_0_1_2_11.offCoord (ix2 n (0 : Fin 1)) 0 = 0 := rfl
    show gather_S8388608x5_S8388608x1x1_S8388608x1_n_1_0_0_1_2_11.start (ix2 n (0 : Fin 1)) idx 0
      + gather_S8388608x5_S8388608x1x1_S8388608x1_n_1_0_0_1_2_11.batchCoord (ix2 n (0 : Fin 1)) 0
      + gather_S8388608x5_S8388608x1x1_S8388608x1_n_1_0_0_1_2_11.offCoord (ix2 n (0 : Fin 1)) 0 = n.val
    rw [h1, h2, h3, Nat.zero_add, Nat.add_zero]
  | ⟨1, _⟩ =>
    have h1 : gather_S8388608x5_S8388608x1x1_S8388608x1_n_1_0_0_1_2_11.start (ix2 n (0 : Fin 1)) idx 1
        = min (idx (gather_S8388608x5_S8388608x1x1_S8388608x1_n_1_0_0_1_2_11.siIdx (ix2 n (0 : Fin 1))
            ⟨0, by decide⟩)).toInt.toNat (5 - 1) := rfl
    have h2 : gather_S8388608x5_S8388608x1x1_S8388608x1_n_1_0_0_1_2_11.batchCoord (ix2 n (0 : Fin 1)) 1 = 0 := rfl
    have h3 : gather_S8388608x5_S8388608x1x1_S8388608x1_n_1_0_0_1_2_11.offCoord (ix2 n (0 : Fin 1)) 1 = 0 := rfl
    show gather_S8388608x5_S8388608x1x1_S8388608x1_n_1_0_0_1_2_11.start (ix2 n (0 : Fin 1)) idx 1
      + gather_S8388608x5_S8388608x1x1_S8388608x1_n_1_0_0_1_2_11.batchCoord (ix2 n (0 : Fin 1)) 1
      + gather_S8388608x5_S8388608x1x1_S8388608x1_n_1_0_0_1_2_11.offCoord (ix2 n (0 : Fin 1)) 1
      = min (idx (ix3 n (0 : Fin 1) (0 : Fin 1))).toInt.toNat (5 - 1)
    rw [h1, h2, h3, gather13_si]
    simp only [Nat.add_zero]

/-- The batched gather reads the log-softmax of row `n` at the class the target word names. -/
theorem c1v13_word (n : Fin 8388608) (h : (x1 (ix1 n)).toNat < 5) :
    val_main_call1_v13 (F := Ideal) x0 x1 (ix2 n (0 : Fin 1))
      = val_main_v0 (F := Ideal) x0 (ix2 n ⟨(x1 (ix1 n)).toNat, h⟩) := by
  unfold val_main_call1_v13
  show val_main_v0 (F := Ideal) x0 (gather_S8388608x5_S8388608x1x1_S8388608x1_n_1_0_0_1_2_11.operandIdx
    (ix2 n (0 : Fin 1)) (val_main_call1_v5 (F := Ideal) x1)) = _
  rw [gather13_idx]
  refine congrArg (fun q : Fin 5 => val_main_v0 (F := Ideal) x0 (ix2 n q)) (Fin.ext ?_)
  show min (val_main_call1_v5 (F := Ideal) x1 (ix3 n (0 : Fin 1) (0 : Fin 1))).toInt.toNat (5 - 1) = (x1 (ix1 n)).toNat
  rw [c1v5_word x1 n h]
  exact clamp_word _ h

/-- The table's start index is the target word (the wrap-around select keeps it). -/
theorem v10_word (n : Fin 8388608) (h : (x1 (ix1 n)).toNat < 5) :
    val_main_v10 (F := Ideal) x1 (ix2 n (0 : Fin 1)) = x1 (ix1 n) := by
  rw [val_main_v10_apply, idx_v10_eq, val_main_v9_apply, val_main_v6_apply, val_main_v5_apply, val_main_c_apply,
    slt_zero _ h]
  exact select_zero _ _

/-- The table gather's start index for result index `n` is read at (n, 0). -/
theorem gather11_si (n : Fin 8388608) :
    gather_S5_S8388608x1_S8388608_n_0_n_n_0_1_1.siIdx (ix1 n) ⟨0, by decide⟩ = ix2 n (0 : Fin 1) := by
  funext b
  apply Fin.ext
  match b with
  | ⟨0, _⟩ => rfl
  | ⟨1, _⟩ => rfl

/-- The table gather reads, for result index `n`, the entry at the start index read signed and clamped into 0 … 4. -/
theorem gather11_idx (idx : IVec S8388608x1 32) (n : Fin 8388608) :
    gather_S5_S8388608x1_S8388608_n_0_n_n_0_1_1.operandIdx (ix1 n) idx
      = ix1 ⟨min (idx (ix2 n (0 : Fin 1))).toInt.toNat (5 - 1), by omega⟩ := by
  funext a
  apply Fin.ext
  match a with
  | ⟨0, _⟩ =>
    have h1 : gather_S5_S8388608x1_S8388608_n_0_n_n_0_1_1.start (ix1 n) idx 0
        = min (idx (gather_S5_S8388608x1_S8388608_n_0_n_n_0_1_1.siIdx (ix1 n) ⟨0, by decide⟩)).toInt.toNat (5 - 1) := rfl
    have h2 : gather_S5_S8388608x1_S8388608_n_0_n_n_0_1_1.batchCoord (ix1 n) 0 = 0 := rfl
    have h3 : gather_S5_S8388608x1_S8388608_n_0_n_n_0_1_1.offCoord (ix1 n) 0 = 0 := rfl
    show gather_S5_S8388608x1_S8388608_n_0_n_n_0_1_1.start (ix1 n) idx 0
      + gather_S5_S8388608x1_S8388608_n_0_n_n_0_1_1.batchCoord (ix1 n) 0
      + gather_S5_S8388608x1_S8388608_n_0_n_n_0_1_1.offCoord (ix1 n) 0
      = min (idx (ix2 n (0 : Fin 1))).toInt.toNat (5 - 1)
    rw [h1, h2, h3, gather11_si]
    simp only [Nat.add_zero]

/-- The table gather reads the weight of the class the target word names. -/
theorem v11_word (n : Fin 8388608) (h : (x1 (ix1 n)).toNat < 5) :
    val_main_v11 (F := Ideal) x1 x2 (ix1 n) = x2 (ix1 ⟨(x1 (ix1 n)).toNat, h⟩) := by
  unfold val_main_v11
  show x2 (gather_S5_S8388608x1_S8388608_n_0_n_n_0_1_1.operandIdx (ix1 n) (val_main_v10 (F := Ideal) x1)) = _
  rw [gather11_idx]
  refine congrArg (fun q : Fin 5 => x2 (ix1 q)) (Fin.ext ?_)
  show min (val_main_v10 (F := Ideal) x1 (ix2 n (0 : Fin 1))).toInt.toNat (5 - 1) = (x1 (ix1 n)).toNat
  rw [v10_word x1 n h]
  exact clamp_word _ h

/-! ## The law, and the row maximum a real number -/

/-- For real `a` and `m` and any extended real `L`: minus the log-softmax term is the cross-entropy term. -/
theorem neg_shift (a m : ℝ) (L : EReal) : -(((a : EReal) - (m : EReal)) - L) = ((m : EReal) + L) - (a : EReal) := by
  induction L using EReal.rec with
  | bot => simp [sub_eq_add_neg]
  | coe l =>
    rw [← EReal.coe_sub, ← EReal.coe_sub, ← EReal.coe_neg, ← EReal.coe_add, ← EReal.coe_sub]
    congr 1
    ring
  | top => simp [sub_eq_add_neg]

/-- The maximum of a row of five reals, folded from −∞, is a real: it is above −∞ (the first entry is) and below +∞. -/
theorem rowMax_real (x : Fin 5 → EReal) (hx : ∀ k, ∃ r : ℝ, x k = (r : EReal)) : ∃ r : ℝ, rowMax x = (r : EReal) := by
  have hlt : rowMax x < ⊤ := by
    unfold rowMax
    rw [Finset.fold_max_lt]
    refine ⟨by rw [negInf_eq_bot]; exact bot_lt_top, fun k _ => ?_⟩
    obtain ⟨r, hr⟩ := hx k
    rw [hr]
    exact EReal.coe_lt_top r
  have hgt : ⊥ < rowMax x := by
    unfold rowMax
    rw [Finset.lt_fold_max]
    refine Or.inr ⟨0, Finset.mem_univ _, ?_⟩
    obtain ⟨r, hr⟩ := hx 0
    rw [hr]
    exact EReal.bot_lt_coe r
  exact ⟨(rowMax x).toReal, (EReal.coe_toReal hlt.ne hgt.ne').symm⟩

/-! ## One sample, then the mean -/

/-- One sample: the product of the negated gathered log-softmax term and the gathered weight is the sample's weighted loss. -/
theorem sample_eq (hfin : ∀ i, ∃ r : ℝ, x0 i = (r : EReal)) (n : Fin 8388608) (h : (x1 (ix1 n)).toNat < 5) :
    val_main_v12 (F := Ideal) x0 x1 x2 (ix1 n) = lossAt x0 x1 x2 n := by
  rw [val_main_v12_apply, val_main_v4_apply, val_main_v3_apply, idx_v3_eq, val_main_v2_apply, c1v12_word x1 n h,
    c1v13_word x0 x1 n h, v11_word x1 x2 n h, logp_row, select_one]
  unfold lossAt sampleLoss
  rw [cls_eq _ h]
  obtain ⟨a, ha⟩ := hfin (ix2 n ⟨(x1 (ix1 n)).toNat, h⟩)
  obtain ⟨m, hm⟩ := rowMax_real (row x0 n) (fun k => hfin (ix2 n k))
  show -((x0 (ix2 n ⟨(x1 (ix1 n)).toNat, h⟩) - rowMax (row x0 n)) - Ideal.log (expSum (row x0 n)))
      * x2 (ix1 ⟨(x1 (ix1 n)).toNat, h⟩)
    = ((rowMax (row x0 n) + Ideal.log (expSum (row x0 n))) - x0 (ix2 n ⟨(x1 (ix1 n)).toNat, h⟩))
      * x2 (ix1 ⟨(x1 (ix1 n)).toNat, h⟩)
  rw [ha, hm, neg_shift]

/-- The samples' indices are the samples. -/
def sampleEquiv : Fin 8388608 ≃ S8388608.Idx where
  toFun := ix1
  invFun j := j 0
  left_inv _ := rfl
  right_inv j := (eq_ix1 j).symm

end Stages

/-- The reference's result, as a function of the three argument arrays, is the mean weighted loss at every (the one)
    index, when the logits are real numbers and the target words are class numbers. -/
theorem result_eq (x0 : (⟨S8388608x5, .f32⟩ : BufTy).Contents (Elt Ideal)) (x1 : (⟨S8388608, .i32⟩ : BufTy).Contents (Elt Ideal))
    (x2 : (⟨S5, .f32⟩ : BufTy).Contents (Elt Ideal))
    (hfin : ∀ i, ∃ r : ℝ, x0 i = (r : EReal)) (hrange : ∀ n : Fin 8388608, (x1 (ix1 n)).toNat < 5) :
    Cert.ReferenceIdeal.Read.val_main_v14 (F := Ideal) x0 x1 x2 = fun _ => Cert.WeightedCE.meanLoss x0 x1 x2 := by
  funext i
  have hs : ∑ j : S8388608.Idx, val_main_v12 (F := Ideal) x0 x1 x2 j = ∑ n : Fin 8388608, lossAt x0 x1 x2 n :=
    (Fintype.sum_equiv sampleEquiv (fun n => lossAt x0 x1 x2 n) (fun j => val_main_v12 (F := Ideal) x0 x1 x2 j)
      (fun n => (sample_eq x0 x1 x2 hfin n (hrange n)).symm)).symm
  rw [val_main_v14_apply, val_main_v13_apply, val_main_cst_apply, val_main_cst_1_apply, hs, Ideal.ofBits_def,
    Ideal.ofBits_zero_f32, zero_add]
  rfl

end Cert.ReferenceIdeal.RefValue

end
-- ==== Proof.PreFacts.lean ====
/-
  What the precondition says of the arguments: every logit is a real number, and every target word is one of 0 … 4.
-/
import proofs.«429125_j42202348650721_3_alg».proof.Pre_finite_inputs
import Idealize.ShloMosaic.PureOps.Ideal
import Idealize.ShloMosaic.Lib.ValueIdx
import Idealize.ShloMosaic.Lib.ReduceAll

noncomputable section

namespace Cert.PreFacts

open Idealize.ShloMosaic Idealize.ShloMosaic.ValueIdx Cert.Pre_finite_inputs

variable [Cert.Pre_finite_inputs.Facts]

/-- The rank-0 shape has one index. -/
instance : Subsingleton S_.Idx := ⟨fun a b => funext fun d => d.elim0⟩

/-- The pattern 0x7F800000 denotes +∞. -/
theorem inf_bits : Ideal.ofBits .f32 0x7F800000#32 = (⊤ : EReal) := by
  simp [Ideal.ofBits, Ideal.ieee]

/-- An extended real whose absolute value max x (−x) is below +∞ is a real number. -/
theorem real_of_abs_lt_top (x : EReal) (h : Ideal.cmp .olt (max x (-x)) ⊤ = 1#1) : ∃ r : ℝ, x = (r : EReal) := by
  induction x using EReal.rec with
  | bot => exfalso; revert h; simp [Ideal.cmp]
  | coe r => exact ⟨r, rfl⟩
  | top => exfalso; revert h; simp [Ideal.cmp]

/-- A 32-bit word that reads, signed, at least 0 and below 5 has a natural-number value below 5. -/
theorem toNat_lt_five (t : BitVec 32) (h0 : (0#32 : BitVec 32).toInt ≤ t.toInt) (h5 : t.toInt < (5#32 : BitVec 32).toInt) :
    t.toNat < 5 := by
  have e0 : (0#32 : BitVec 32).toInt = 0 := by decide
  have e5 : (5#32 : BitVec 32).toInt = 5 := by decide
  rw [e0] at h0
  rw [e5] at h5
  have := BitVec.toInt_eq_toNat_cond t
  have := t.isLt
  split at * <;> omega

/-- If the printed precondition is all ones on the three arguments, the logits are finite — real numbers — and each
    target word, read signed, is at least 0 and below 5, so that its value as a natural number is below 5. -/
theorem of_pre (x0 : FVec Ideal S8388608x5 .f32) (x1 : IVec S8388608 32) (x2 : FVec Ideal S5 .f32)
    (h : Cert.Pre_finite_inputs.fn (F := Ideal) x0 x1 x2 = fun _ => 1#1) :
    (∀ i, ∃ r : ℝ, x0 i = (r : EReal)) ∧ (∀ n : Fin 8388608, (x1 (ix1 n)).toNat < 5) := by
  have h0 := congrFun h ValueIdx.ix0
  unfold Cert.Pre_finite_inputs.fn at h0
  dsimp only at h0
  obtain ⟨h8, h14⟩ := IntOp.andi_eq_one.1 (show IntOp.andi _ _ = 1#1 from h0)
  obtain ⟨h3, _⟩ := IntOp.andi_eq_one.1 (show IntOp.andi _ _ = 1#1 from h8)
  refine ⟨fun i => ?_, fun n => ?_⟩
  · -- the first conjunction over all indices: |x0 i| < +∞ at every index
    have e := Host.reduce_andi_all _ _ _ _ _ h3 i
    refine real_of_abs_lt_top (x0 i) ?_
    rw [← inf_bits]
    exact e
  · -- the third conjunction over all indices: 0 ≤ x1 n and x1 n < 5, both read signed
    have e := Host.reduce_andi_all _ _ _ _ _ h14 (ix1 n)
    obtain ⟨ea, eb⟩ := IntOp.andi_eq_one.1 (show IntOp.andi _ _ = 1#1 from e)
    have ea' : IntOp.cmpi .sge (x1 (ix1 n)) (0#32) = 1#1 := ea
    have eb' : IntOp.cmpi .slt (x1 (ix1 n)) (5#32) = 1#1 := eb
    exact toNat_lt_five _ (IntOp.cmpi_sge.1 ea') (IntOp.cmpi_slt.1 eb')

end Cert.PreFacts

end
-- ==== Proof.lean ====
/-
  The certificate of a weighted cross-entropy kernel against its reference.

  Both programs take N = 8388608 rows of five logits, one target word per row and a table of five class weights, and
  return one number. For a row x and a class k the cross-entropy term is the negated log-softmax of the row at k,
      (max x + log ∑ⱼ exp (xⱼ − max x)) − x_k ,
  and the result is the mean over the rows of that term, at the row's target class, times the class's weight.

  The kernel reads the logits transposed, 131072 samples to a grid point, on a grid of 2 × 32 points. At a point it
  takes the column maxima and the sums of the shifted exponentials, picks each sample's logit and weight by a chain of
  comparisons of the target word with 3, 2, 1, 0 (any other word falls to the last class), adds the point's 131072
  weighted terms into an accumulator that is cleared at the first of every 32 points and copied out at the last, and
  after the region adds the two copied entries and divides by N. The reference subtracts the row maximum, takes the
  log-softmax, gathers it and the weight at the target word (a negative word counted from the end, a word outside the
  five classes filled with a fixed pattern), negates, multiplies, sums all N terms and divides by N.

  The two differ outside the label range: a target word of −2 names the fourth class for the reference and the last
  for the kernel. So the claim is stated where the targets are labels, 0 ≤ t < 5; there both gathers read class t, the
  kernel's chain picks class t, and for real logits (the precondition's other half) the two arrangements of the term,
  −((x_k − M) − L) and (M + L) − x_k, are equal for every extended real L. Sums of extended reals may be regrouped
  freely, so the kernel's 2 × 32 × 131072 arrangement of the sum is the reference's single sum.

  The kernel's frames are the generated ones; its value is read off the generated frame run point by point
  (KernelValue, over the body's arithmetic in Payload); the reference's run is read stage by stage (RefRun, RefValue);
  PreFacts reads the precondition. The common value is Loss's `meanLoss`.
-/
import proofs.«429125_j42202348650721_3_alg».proof.Defs
import proofs.«429125_j42202348650721_3_alg».proof.Proof.Gen.Kernel
import proofs.«429125_j42202348650721_3_alg».proof.Proof.Gen.Kernel.Skeleton
import proofs.«429125_j42202348650721_3_alg».proof.Proof.Gen.Kernel.Launch
import proofs.«429125_j42202348650721_3_alg».proof.Proof.Gen.Kernel.Points
import proofs.«429125_j42202348650721_3_alg».proof.Proof.Gen.Kernel.Frame
import proofs.«429125_j42202348650721_3_alg».proof.Proof.Gen.KernelIdeal
import proofs.«429125_j42202348650721_3_alg».proof.Proof.Gen.KernelIdeal.Skeleton
import proofs.«429125_j42202348650721_3_alg».proof.Proof.Gen.KernelIdeal.Launch
import proofs.«429125_j42202348650721_3_alg».proof.Proof.Gen.KernelIdeal.Points
import proofs.«429125_j42202348650721_3_alg».proof.Proof.Gen.KernelIdeal.Frame
import proofs.«429125_j42202348650721_3_alg».proof.Proof.Gen.ReferenceIdeal
import proofs.«429125_j42202348650721_3_alg».proof.Proof.Gen.Pre_finite_inputs
import proofs.«429125_j42202348650721_3_alg».proof.Proof.KernelValue
import proofs.«429125_j42202348650721_3_alg».proof.Proof.RefRun
import proofs.«429125_j42202348650721_3_alg».proof.Proof.RefValue
import proofs.«429125_j42202348650721_3_alg».proof.Proof.PreFacts
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The kernel read over the extended reals is the printed kernel's own text: nothing was rewritten. -/
theorem preserves : Cert.preserves_Kernel_KernelIdeal := trivial

/-- Over the extended reals, on finite logits and targets that are class labels, the kernel and the reference end
    with the same number: the mean weighted loss of the arguments. -/
theorem algebraic : Cert.algebraic_KernelIdeal_ReferenceIdeal := by
  intro m ρ m' ρ' hpre hagree
  refine ⟨fun c => fun _ => Cert.WeightedCE.meanLoss (Cert.KernelIdeal.KValue.pred m c) (Cert.KernelIdeal.KValue.targ m c)
    (Cert.KernelIdeal.KValue.wtab m c), Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  obtain ⟨hfin, hrange⟩ := Cert.PreFacts.of_pre _ _ _ (hpre c)
  exact Cert.ReferenceIdeal.RefValue.result_eq _ _ _ hfin hrange

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
